-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S400000 : S_.BroadcastsInDim S400000 (![] : Fin 0 → Fin S400000.rank)
  reducesTo_S400000_S_d0 : S400000.ReducesTo [0] S_

variable [Facts]

def fn_part3 {F : FTy → Type} [FloatOps F] (main_v45 : IVec S_ 1) (main_v50 : IVec S400000 1) : IVec S_ 1 :=
  let main_c_19 : IVec S_ 1 := constantI S_ 1 1#1
  let main_v51 : IVec S_ 1 := (fun x v => Host.reduce IntOp.andi x v reducesTo_S400000_S_d0 h_S_) main_v50 main_c_19
  let main_v52 : IVec S_ 1 := andi main_v45 main_v51
  main_v52

def fn_part2 {F : FTy → Type} [FloatOps F] (main_arg2 : IVec S400000 32) (main_arg3 : IVec S400000 32) (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S400000 32 := broadcastInDim S400000 ![] bcast_S_S400000 main_c_14
  let main_v40 : IVec S400000 1 := cmpi .sge main_arg2 main_v39
  let main_c_15 : IVec S_ 32 := constantI S_ 32 50000#32
  let main_v41 : IVec S400000 32 := broadcastInDim S400000 ![] bcast_S_S400000 main_c_15
  let main_v42 : IVec S400000 1 := cmpi .slt main_arg2 main_v41
  let main_v43 : IVec S400000 1 := andi main_v40 main_v42
  let main_c_16 : IVec S_ 1 := constantI S_ 1 1#1
  let main_v44 : IVec S_ 1 := (fun x v => Host.reduce IntOp.andi x v reducesTo_S400000_S_d0 h_S_) main_v43 main_c_16
  let main_v45 : IVec S_ 1 := andi main_v38 main_v44
  let main_c_17 : IVec S_ 32 := constantI S_ 32 0#32
  let main_v46 : IVec S400000 32 := broadcastInDim S400000 ![] bcast_S_S400000 main_c_17
  let main_v47 : IVec S400000 1 := cmpi .sge main_arg3 main_v46
  let main_c_18 : IVec S_ 32 := constantI S_ 32 20000#32
  let main_v48 : IVec S400000 32 := broadcastInDim S400000 ![] bcast_S_S400000 main_c_18
  let main_v49 : IVec S400000 1 := cmpi .slt main_arg3 main_v48
  let main_v50 : IVec S400000 1 := andi main_v47 main_v49
  fn_part3 (F := F) main_v45 main_v50

def fn_part1 {F : FTy → Type} [FloatOps F] (main_arg2 : IVec S400000 32) (main_arg3 : IVec S400000 32) (main_arg6 : FVec F S512x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg3 main_arg9 main_v33

def fn {F : FTy → Type} [FloatOps F] (main_arg0 : FVec F S50000x256 .f32) (main_arg1 : FVec F S50000x256 .f32) (main_arg2 : IVec S400000 32) (main_arg3 : IVec S400000 32) (main_arg4 : FVec F S256x256 .f32) (main_arg5 : FVec F S256 .f32) (main_arg6 : FVec F S512x256 .f32) (main_arg7 : FVec F S256 .f32) (main_arg8 : FVec F S256x256 .f32) (main_arg9 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_arg8 main_arg9 main_v13 main_v16
-- ==== Kernel.lean ====
abbrev S50000x256 : Shape := ⟨2, ![50000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S5000x256 : Shape := ⟨2, ![5000, 256]⟩
abbrev S1x256 : Shape := ⟨2, ![1, 256]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x256 : Shape := ⟨2, ![400000, 256]⟩
abbrev S20000x256 : Shape := ⟨2, ![20000, 256]⟩
abbrev S20000x1 : Shape := ⟨2, ![20000, 1]⟩
abbrev S400000x512 : Shape := ⟨2, ![400000, 512]⟩
abbrev S4000x512 : Shape := ⟨2, ![4000, 512]⟩
abbrev S4000x256 : Shape := ⟨2, ![4000, 256]⟩
abbrev S50000x1 : Shape := ⟨2, ![50000, 1]⟩
abbrev S2000x256 : Shape := ⟨2, ![2000, 256]⟩

abbrev nBuf : Space → Nat
  | .hbm => 113
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S50000x256, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S1, .i32⟩
  | .hbm, ⟨20, _⟩ => ⟨S_, .i32⟩
  | .hbm, ⟨21, _⟩ => ⟨S400000x1, .i32⟩
  | .hbm, ⟨22, _⟩ => ⟨S400000x1, .i1⟩
  | .hbm, ⟨23, _⟩ => ⟨S1x1, .i32⟩
  | .hbm, ⟨24, _⟩ => ⟨S400000x1, .i32⟩
  | .hbm, ⟨25, _⟩ => ⟨S400000x1, .i1⟩
  | .hbm, ⟨26, _⟩ => ⟨S400000x1, .i1⟩
  | .hbm, ⟨27, _⟩ => ⟨S_, .i1⟩
  | .hbm, ⟨28, _⟩ => ⟨S400000, .i1⟩
  | .hbm, ⟨29, _⟩ => ⟨S400000x256, .f32⟩
  | .hbm, ⟨30, _⟩ => ⟨S400000x256, .i1⟩
  | .hbm, ⟨31, _⟩ => ⟨S_, .f32⟩
  | .hbm, ⟨32, _⟩ => ⟨S400000x256, .f32⟩
  | .hbm, ⟨33, _⟩ => ⟨S400000x256, .f32⟩
  | .hbm, ⟨34, _⟩ => ⟨S_, .f32⟩
  | .hbm, ⟨35, _⟩ => ⟨S20000x256, .f32⟩
  | .hbm, ⟨36, _⟩ => ⟨S400000x1, .i32⟩
  | .hbm, ⟨37, _⟩ => ⟨S20000x256, .f32⟩
  | .hbm, ⟨38, _⟩ => ⟨S_, .f32⟩
  | .hbm, ⟨39, _⟩ => ⟨S400000x1, .f32⟩
  | .hbm, ⟨40, _⟩ => ⟨S_, .f32⟩
  | .hbm, ⟨41, _⟩ => ⟨S20000x1, .f32⟩
  | .hbm, ⟨42, _⟩ => ⟨S400000x1, .i32⟩
  | .hbm, ⟨43, _⟩ => ⟨S20000x1, .f32⟩
  | .hbm, ⟨44, _⟩ => ⟨S_, .f32⟩
  | .hbm, ⟨45, _⟩ => ⟨S20000x1, .f32⟩
  | .hbm, ⟨46, _⟩ => ⟨S20000x1, .f32⟩
  | .hbm, ⟨47, _⟩ => ⟨S20000x256, .f32⟩
  | .hbm, ⟨48, _⟩ => ⟨S20000x256, .f32⟩
  | .hbm, ⟨49, _⟩ => ⟨S_, .i32⟩
  | .hbm, ⟨50, _⟩ => ⟨S400000, .i32⟩
  | .hbm, ⟨51, _⟩ => ⟨S400000, .i1⟩
  | .hbm, ⟨52, _⟩ => ⟨S_, .i32⟩
  | .hbm, ⟨53, _⟩ => ⟨S400000, .i32⟩
  | .hbm, ⟨54, _⟩ => ⟨S400000, .i32⟩
  | .hbm, ⟨55, _⟩ => ⟨S400000, .i32⟩
  | .hbm, ⟨56, _⟩ => ⟨S400000x1, .i32⟩
  | .hbm, ⟨57, _⟩ => ⟨S1, .i32⟩
  | .hbm, ⟨58, _⟩ => ⟨S_, .i32⟩
  | .hbm, ⟨59, _⟩ => ⟨S400000x1, .i32⟩
  | .hbm, ⟨60, _⟩ => ⟨S400000x1, .i1⟩
  | .hbm, ⟨61, _⟩ => ⟨S1x1, .i32⟩
  | .hbm, ⟨62, _⟩ => ⟨S400000x1, .i32⟩
  | .hbm, ⟨63, _⟩ => ⟨S400000x1, .i1⟩
  | .hbm, ⟨64, _⟩ => ⟨S400000x1, .i1⟩
  | .hbm, ⟨65, _⟩ => ⟨S_, .i1⟩
  | .hbm, ⟨66, _⟩ => ⟨S400000, .i1⟩
  | .hbm, ⟨67, _⟩ => ⟨S400000x256, .f32⟩
  | .hbm, ⟨68, _⟩ => ⟨S400000x256, .i1⟩
  | .hbm, ⟨69, _⟩ => ⟨S_, .f32⟩
  | .hbm, ⟨70, _⟩ => ⟨S400000x256, .f32⟩
  | .hbm, ⟨71, _⟩ => ⟨S400000x256, .f32⟩
  | .hbm, ⟨72, _⟩ => ⟨S_, .i32⟩
  | .hbm, ⟨73, _⟩ => ⟨S400000, .i32⟩
  | .hbm, ⟨74, _⟩ => ⟨S400000, .i1⟩
  | .hbm, ⟨75, _⟩ => ⟨S_, .i32⟩
  | .hbm, ⟨76, _⟩ => ⟨S400000, .i32⟩
  | .hbm, ⟨77, _⟩ => ⟨S400000, .i32⟩
  | .hbm, ⟨78, _⟩ => ⟨S400000, .i32⟩
  | .hbm, ⟨79, _⟩ => ⟨S400000x1, .i32⟩
  | .hbm, ⟨80, _⟩ => ⟨S1, .i32⟩
  | .hbm, ⟨81, _⟩ => ⟨S_, .i32⟩
  | .hbm, ⟨82, _⟩ => ⟨S400000x1, .i32⟩
  | .hbm, ⟨83, _⟩ => ⟨S400000x1, .i1⟩
  | .hbm, ⟨84, _⟩ => ⟨S1x1, .i32⟩
  | .hbm, ⟨85, _⟩ => ⟨S400000x1, .i32⟩
  | .hbm, ⟨86, _⟩ => ⟨S400000x1, .i1⟩
  | .hbm, ⟨87, _⟩ => ⟨S400000x1, .i1⟩
  | .hbm, ⟨88, _⟩ => ⟨S_, .i1⟩
  | .hbm, ⟨89, _⟩ => ⟨S400000, .i1⟩
  | .hbm, ⟨90, _⟩ => ⟨S400000x256, .f32⟩
  | .hbm, ⟨91, _⟩ => ⟨S400000x256, .i1⟩
  | .hbm, ⟨92, _⟩ => ⟨S_, .f32⟩
  | .hbm, ⟨93, _⟩ => ⟨S400000x256, .f32⟩
  | .hbm, ⟨94, _⟩ => ⟨S400000x256, .f32⟩
  | .hbm, ⟨95, _⟩ => ⟨S400000x512, .f32⟩
  | .hbm, ⟨96, _⟩ => ⟨S400000x256, .f32⟩
  | .hbm, ⟨97, _⟩ => ⟨S_, .f32⟩
  | .hbm, ⟨98, _⟩ => ⟨S50000x256, .f32⟩
  | .hbm, ⟨99, _⟩ => ⟨S400000x1, .i32⟩
  | .hbm, ⟨100, _⟩ => ⟨S50000x256, .f32⟩
  | .hbm, ⟨101, _⟩ => ⟨S_, .f32⟩
  | .hbm, ⟨102, _⟩ => ⟨S400000x1, .f32⟩
  | .hbm, ⟨103, _⟩ => ⟨S_, .f32⟩
  | .hbm, ⟨104, _⟩ => ⟨S50000x1, .f32⟩
  | .hbm, ⟨105, _⟩ => ⟨S400000x1, .i32⟩
  | .hbm, ⟨106, _⟩ => ⟨S50000x1, .f32⟩
  | .hbm, ⟨107, _⟩ => ⟨S_, .f32⟩
  | .hbm, ⟨108, _⟩ => ⟨S50000x1, .f32⟩
  | .hbm, ⟨109, _⟩ => ⟨S50000x1, .f32⟩
  | .hbm, ⟨110, _⟩ => ⟨S50000x256, .f32⟩
  | .hbm, ⟨111, _⟩ => ⟨S50000x256, .f32⟩
  | .hbm, ⟨112, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S4000x512, .f32⟩
  | .local _ .vmem, ⟨7, _⟩ => ⟨S4000x512, .f32⟩
  | .local _ .vmem, ⟨8, _⟩ => ⟨S512x256, .f32⟩
  | .local _ .vmem, ⟨9, _⟩ => ⟨S256, .f32⟩
  | .local _ .vmem, ⟨10, _⟩ => ⟨S4000x256, .f32⟩
  | .local _ .vmem, ⟨11, _⟩ => ⟨S4000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S256, .f32⟩
  | .local _ .vmem, ⟨18, _⟩ => ⟨S2000x256, .f32⟩
  | .local _ .vmem, ⟨19, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_cst : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_cst_1 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v13 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_cst_3 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst_4 : Ref sig .tc := ⟨.hbm, 101, rfl⟩
abbrev main_v20 : Ref sig .tc := ⟨.hbm, 102, rfl⟩
abbrev main_cst_5 : Ref sig .tc := ⟨.hbm, 103, rfl⟩
abbrev main_v21 : Ref sig .tc := ⟨.hbm, 104, rfl⟩
abbrev main_v22 : Ref sig .tc := ⟨.hbm, 105, rfl⟩
abbrev main_v23 : Ref sig .tc := ⟨.hbm, 106, rfl⟩
abbrev main_cst_6 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x256_0 : S400000.BroadcastsInDim S400000x256 (![0] : Fin 1 → Fin S400000x256.rank)
  bcast_S_S400000x256 : S_.BroadcastsInDim S400000x256 (![] : Fin 0 → Fin S400000x256.rank)
  bcast_S_S20000x256 : S_.BroadcastsInDim S20000x256 (![] : Fin 0 → Fin S20000x256.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  concatenates_S400000x256_S400000x256_S400000x512_d1 : Shape.Concatenates [S400000x256, S400000x256] S400000x512 1
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S512x256_S512x256_0_0 : ∀ a, (![0, 0] : Fin 2 → Nat) a + S512x256.size a ≤ S512x256.size a
  h_S512x256 : 0 < S512x256.numel
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S50000x256 : S_.BroadcastsInDim S50000x256 (![] : Fin 0 → Fin S50000x256.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  dot_S5000x256_S256x256_S5000x256_1_0_0_1_n_n_wf : DotDims.WF S5000x256 S256x256 S5000x256 [1] [0] [0] [1] [] []
  gather_S50000x256_S400000x1_S400000x256_1_0_n_n_0_1_1256_wf : GatherDims.WF S50000x256 S400000x1 S400000x256 [1] [0] [] [0] [] 1 ![1, 256]
  scatter_S20000x256_S400000x1_S400000x256_1_0_0_1_wf : ScatterDims.WF S20000x256 S400000x1 S400000x256 [1] [0] [0] 1
  scatter_S20000x1_S400000x1_S400000x1_1_0_0_1_wf : ScatterDims.WF S20000x1 S400000x1 S400000x1 [1] [0] [0] 1
  gather_S20000x256_S400000x1_S400000x256_1_0_n_n_0_1_1256_wf : GatherDims.WF S20000x256 S400000x1 S400000x256 [1] [0] [] [0] [] 1 ![1, 256]
  dot_S4000x512_S512x256_S4000x256_1_0_0_1_n_n_wf : DotDims.WF S4000x512 S512x256 S4000x256 [1] [0] [0] [1] [] []
  scatter_S50000x256_S400000x1_S400000x256_1_0_0_1_wf : ScatterDims.WF S50000x256 S400000x1 S400000x256 [1] [0] [0] 1
  scatter_S50000x1_S400000x1_S400000x1_1_0_0_1_wf : ScatterDims.WF S50000x1 S400000x1 S400000x1 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x512.size a ≤ S400000x512.size a
  hwx1_0 : ∀ i : grid1.Coords, EltTy.bits .f32 = 32 ∨ (Rect.block (s := S400000x512) S4000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S400000x256.size a
  hwx1_3 : ∀ i : grid1.Coords, EltTy.bits .f32 = 32 ∨ (Rect.block (s := S400000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S400000x1 : Shape := ⟨2, ![400000, 1]⟩
abbrev S400000x256 : Shape := ⟨2, ![400000, 256]⟩
abbrev S20000x256 : Shape := ⟨2, ![20000, 256]⟩
abbrev S20000x1 : Shape := ⟨2, ![20000, 1]⟩
abbrev S400000x512 : Shape := ⟨2, ![400000, 512]⟩
abbrev S50000x1 : Shape := ⟨2, ![50000, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S50000x256, .f32⟩
  | .hbm, ⟨11, _⟩ => ⟨S1x256, .f32⟩
  | .hbm, ⟨12, _⟩ => ⟨S50000x256, .f32⟩
  | .hbm, ⟨13, _⟩ => ⟨S50000x256, .f32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x256, .f32⟩
  | .hbm, ⟨23, _⟩ => ⟨S_, .f32⟩
  | .hbm, ⟨24, _⟩ => ⟨S20000x256, .f32⟩
  | .hbm, ⟨25, _⟩ => ⟨S400000x1, .i32⟩
  | .hbm, ⟨26, _⟩ => ⟨S20000x256, .f32⟩
  | .hbm, ⟨27, _⟩ => ⟨S_, .f32⟩
  | .hbm, ⟨28, _⟩ => ⟨S400000x1, .f32⟩
  | .hbm, ⟨29, _⟩ => ⟨S_, .f32⟩
  | .hbm, ⟨30, _⟩ => ⟨S20000x1, .f32⟩
  | .hbm, ⟨31, _⟩ => ⟨S400000x1, .i32⟩
  | .hbm, ⟨32, _⟩ => ⟨S20000x1, .f32⟩
  | .hbm, ⟨33, _⟩ => ⟨S_, .f32⟩
  | .hbm, ⟨34, _⟩ => ⟨S20000x1, .f32⟩
  | .hbm, ⟨35, _⟩ => ⟨S20000x1, .f32⟩
  | .hbm, ⟨36, _⟩ => ⟨S20000x256, .f32⟩
  | .hbm, ⟨37, _⟩ => ⟨S20000x256, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000x256, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x256, .f32⟩
  | .hbm, ⟨56, _⟩ => ⟨S400000x512, .f32⟩
  | .hbm, ⟨57, _⟩ => ⟨S400000x256, .f32⟩
  | .hbm, ⟨58, _⟩ => ⟨S1x256, .f32⟩
  | .hbm, ⟨59, _⟩ => ⟨S400000x256, .f32⟩
  | .hbm, ⟨60, _⟩ => ⟨S400000x256, .f32⟩
  | .hbm, ⟨61, _⟩ => ⟨S_, .f32⟩
  | .hbm, ⟨62, _⟩ => ⟨S50000x256, .f32⟩
  | .hbm, ⟨63, _⟩ => ⟨S400000x1, .i32⟩
  | .hbm, ⟨64, _⟩ => ⟨S50000x256, .f32⟩
  | .hbm, ⟨65, _⟩ => ⟨S_, .f32⟩
  | .hbm, ⟨66, _⟩ => ⟨S400000x1, .f32⟩
  | .hbm, ⟨67, _⟩ => ⟨S_, .f32⟩
  | .hbm, ⟨68, _⟩ => ⟨S50000x1, .f32⟩
  | .hbm, ⟨69, _⟩ => ⟨S400000x1, .i32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S1x256, .f32⟩
  | .hbm, ⟨85, _⟩ => ⟨S50000x256, .f32⟩
  | .hbm, ⟨86, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S20000x256 : S_.BroadcastsInDim S20000x256 (![] : Fin 0 → Fin S20000x256.rank)
  bcast_S_S400000x1 : S_.BroadcastsInDim S400000x1 (![] : Fin 0 → Fin S400000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  concatenates_S400000x256_S400000x256_S400000x512_d1 : Shape.Concatenates [S400000x256, S400000x256] S400000x512 1
  bcast_S1x256_S400000x256_0_1 : S1x256.BroadcastsInDim S400000x256 (![0, 1] : Fin 2 → Fin S400000x256.rank)
  bcast_S_S50000x256 : S_.BroadcastsInDim S50000x256 (![] : Fin 0 → Fin S50000x256.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S20000x256_S400000x1_S400000x256_1_0_0_1_wf : ScatterDims.WF S20000x256 S400000x1 S400000x256 [1] [0] [0] 1
  scatter_S20000x1_S400000x1_S400000x1_1_0_0_1_wf : ScatterDims.WF S20000x1 S400000x1 S400000x1 [1] [0] [0] 1
  gather_S20000x256_S400000x1_S400000x256_1_0_n_n_0_1_1256_wf : GatherDims.WF S20000x256 S400000x1 S400000x256 [1] [0] [] [0] [] 1 ![1, 256]
  dot_S400000x512_S512x256_S400000x256_1_0_0_1_n_n_wf : DotDims.WF S400000x512 S512x256 S400000x256 [1] [0] [0] [1] [] []
  scatter_S50000x256_S400000x1_S400000x256_1_0_0_1_wf : ScatterDims.WF S50000x256 S400000x1 S400000x256 [1] [0] [0] 1
  scatter_S50000x1_S400000x1_S400000x1_1_0_0_1_wf : ScatterDims.WF S50000x1 S400000x1 S400000x1 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def dot_S400000x512_S512x256_S400000x256_1_0_0_1_n_n : DotDims S400000x512 S512x256 S400000x256 where
  lhsContracting := [1]
  rhsContracting := [0]
  lhsNonContracting := [0]
  rhsNonContracting := [1]
  lhsBatch := []
  rhsBatch := []
  wf := dot_S400000x512_S512x256_S400000x256_1_0_0_1_n_n_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf

class Facts : Prop extends Facts₀ where

variable [Facts]
-- ==== Proof.FillTake.lean ====
/-
  jnp.take with its default out-of-range rule, when no index is out of range.

  The take first normalises a possibly negative row index (idx + N where idx < 0), then gathers, then keeps the
  gathered row where the normalised index lies in [0, N - 1] and puts a fill value elsewhere. When every index is
  already in [0, N) the normalisation changes nothing, the range test holds in every row, and the take is the
  plain gather.
-/
import Idealize.ShloMosaic.PureOps
import Idealize.ShloMosaic.Lib.ValueIdx
import Idealize.ShloMosaic.Lib.Pipeline.Value
import Idealize.ShloMosaic.Lib.ReduceAll
import Idealize.ShloMosaic.Lib.StableHlo.Predicate

noncomputable section

namespace FillTake

open Idealize.ShloMosaic Idealize.ShloMosaic.ValueIdx

variable {n C : Nat}

/-- The normalised row indices, as an [n, 1] column: idx + lim where idx < 0, else idx. -/
def wrapCol (lim : BitVec 32) (idx : IVec ⟨1, ![n]⟩ 32)
    (h0 : (⟨0, ![]⟩ : Shape).BroadcastsInDim ⟨1, ![n]⟩ ![])
    (h5 : (⟨1, ![n]⟩ : Shape).BroadcastsInDim ⟨2, ![n, 1]⟩ ![0]) : IVec ⟨2, ![n, 1]⟩ 32 :=
  broadcastInDim ⟨2, ![n, 1]⟩ ![0] h5
    (select (cmpi .slt idx (broadcastInDim ⟨1, ![n]⟩ ![] h0 (constantI ⟨0, ![]⟩ 32 0#32)))
      (addi idx (broadcastInDim ⟨1, ![n]⟩ ![] h0 (constantI ⟨0, ![]⟩ 32 lim))) idx)

/-- The row test of the take: 0 ≤ normalised index ≤ top, reduced over the column's one entry. -/
def inRange (lim top : BitVec 32) (idx : IVec ⟨1, ![n]⟩ 32)
    (h0 : (⟨0, ![]⟩ : Shape).BroadcastsInDim ⟨1, ![n]⟩ ![])
    (h5 : (⟨1, ![n]⟩ : Shape).BroadcastsInDim ⟨2, ![n, 1]⟩ ![0])
    (h6 : (⟨0, ![]⟩ : Shape).BroadcastsInDim ⟨2, ![n, 1]⟩ ![])
    (h8 : (⟨1, ![1]⟩ : Shape).BroadcastsInDim ⟨2, ![1, 1]⟩ ![1])
    (h9 : (⟨2, ![1, 1]⟩ : Shape).BroadcastsInDim ⟨2, ![n, 1]⟩ ![0, 1])
    (hR : (⟨2, ![n, 1]⟩ : Shape).ReducesTo [1] ⟨1, ![n]⟩) (hS : 0 < (⟨0, ![]⟩ : Shape).numel) : IVec ⟨1, ![n]⟩ 1 :=
  Host.reduce IntOp.andi
    (andi (cmpi .sge (wrapCol lim idx h0 h5) (broadcastInDim ⟨2, ![n, 1]⟩ ![] h6 (constantI ⟨0, ![]⟩ 32 0#32)))
          (cmpi .sle (wrapCol lim idx h0 h5)
            (broadcastInDim ⟨2, ![n, 1]⟩ ![0, 1] h9 (broadcastInDim ⟨2, ![1, 1]⟩ ![1] h8 (constantI ⟨1, ![1]⟩ 32 top)))))
    (constantI ⟨0, ![]⟩ 1 1#1) hR hS

/-- A left fold by `and` from 1 over words that are all 1 is 1. -/
private theorem foldl_andi_ones {ι : Type} (f : ι → BitVec 1) (hf : ∀ i, f i = 1#1) :
    ∀ l : List ι, l.foldl (fun r i => IntOp.andi r (f i)) 1#1 = 1#1
  | [] => rfl
  | a :: l => by
    have h1 : IntOp.andi 1#1 1#1 = 1#1 := by decide
    rw [List.foldl_cons, hf a, h1]
    exact foldl_andi_ones f hf l

/-- A nonnegative index is left alone by the normalisation, and passes both range tests when it is below N. -/
private theorem word_inRange (lim top x : BitVec 32) (N : Nat) (htop : top.toInt = (N : Int) - 1)
    (hx0 : 0 ≤ x.toInt) (hxN : x.toInt < (N : Int)) :
    IntOp.andi
      (IntOp.cmpi .sge (Scalar.select (IntOp.cmpi .slt x 0#32) (IntOp.addi x lim) x) 0#32)
      (IntOp.cmpi .sle (Scalar.select (IntOp.cmpi .slt x 0#32) (IntOp.addi x lim) x) top) = 1#1 := by
  have hz : (0#32 : BitVec 32).toInt = 0 := by decide
  have hneg : IntOp.cmpi .slt x 0#32 = 0#1 := by
    refine eq_zero_of_ne_one fun h => ?_
    rw [IntOp.cmpi_slt, hz] at h
    omega
  rw [hneg, select_zero]
  refine IntOp.andi_eq_one.2 ⟨?_, ?_⟩
  · rw [IntOp.cmpi_sge, hz]; exact hx0
  · rw [IntOp.cmpi_sle, htop]; omega

/-- With every index in [0, N) the row test holds in every row. -/
private theorem inRange_eq_one (lim top : BitVec 32) (N : Nat) (htop : top.toInt = (N : Int) - 1)
    (idx : IVec ⟨1, ![n]⟩ 32) (hr : ∀ j, 0 ≤ (idx j).toInt ∧ (idx j).toInt < (N : Int))
    (h0 : (⟨0, ![]⟩ : Shape).BroadcastsInDim ⟨1, ![n]⟩ ![])
    (h5 : (⟨1, ![n]⟩ : Shape).BroadcastsInDim ⟨2, ![n, 1]⟩ ![0])
    (h6 : (⟨0, ![]⟩ : Shape).BroadcastsInDim ⟨2, ![n, 1]⟩ ![])
    (h8 : (⟨1, ![1]⟩ : Shape).BroadcastsInDim ⟨2, ![1, 1]⟩ ![1])
    (h9 : (⟨2, ![1, 1]⟩ : Shape).BroadcastsInDim ⟨2, ![n, 1]⟩ ![0, 1])
    (hR : (⟨2, ![n, 1]⟩ : Shape).ReducesTo [1] ⟨1, ![n]⟩) (hS : 0 < (⟨0, ![]⟩ : Shape).numel)
    (j : (⟨1, ![n]⟩ : Shape).Idx) : inRange lim top idx h0 h5 h6 h8 h9 hR hS j = 1#1 := by
  unfold inRange
  rw [Host.reduce_eq_foldl]
  show List.foldl _ 1#1 _ = 1#1
  refine foldl_andi_ones _ (fun i => ?_) _
  -- the element at i: the column is the index vector at i's row, the bounds are the two constants
  obtain ⟨r, hr'⟩ : ∃ r : (⟨1, ![n]⟩ : Shape).Idx, wrapCol lim idx h0 h5 i
      = Scalar.select (IntOp.cmpi .slt (idx r) 0#32) (IntOp.addi (idx r) lim) (idx r) := ⟨_, rfl⟩
  show IntOp.andi (IntOp.cmpi .sge (wrapCol lim idx h0 h5 i) 0#32) (IntOp.cmpi .sle (wrapCol lim idx h0 h5 i) top) = 1#1
  rw [hr']
  exact word_inRange lim top (idx r) N htop (hr r).1 (hr r).2

/-- With every index in [0, N): the kept-or-filled rows are the gathered rows. -/
theorem select_inRange_eq {α : Type} (lim top : BitVec 32) (N : Nat) (hlim : lim.toInt = (N : Int))
    (htop : top.toInt = (N : Int) - 1) (idx : IVec ⟨1, ![n]⟩ 32)
    (hr : ∀ j, 0 ≤ (idx j).toInt ∧ (idx j).toInt < (N : Int))
    (h0 : (⟨0, ![]⟩ : Shape).BroadcastsInDim ⟨1, ![n]⟩ ![])
    (h5 : (⟨1, ![n]⟩ : Shape).BroadcastsInDim ⟨2, ![n, 1]⟩ ![0])
    (h6 : (⟨0, ![]⟩ : Shape).BroadcastsInDim ⟨2, ![n, 1]⟩ ![])
    (h8 : (⟨1, ![1]⟩ : Shape).BroadcastsInDim ⟨2, ![1, 1]⟩ ![1])
    (h9 : (⟨2, ![1, 1]⟩ : Shape).BroadcastsInDim ⟨2, ![n, 1]⟩ ![0, 1])
    (hR : (⟨2, ![n, 1]⟩ : Shape).ReducesTo [1] ⟨1, ![n]⟩) (hS : 0 < (⟨0, ![]⟩ : Shape).numel)
    (hB : (⟨1, ![n]⟩ : Shape).BroadcastsInDim ⟨2, ![n, C]⟩ ![0])
    (g fill : (⟨2, ![n, C]⟩ : Shape).Idx → α) :
    select (broadcastInDim ⟨2, ![n, C]⟩ ![0] hB (inRange lim top idx h0 h5 h6 h8 h9 hR hS)) g fill = g := by
  funext i
  rw [select_apply]
  have hm : broadcastInDim ⟨2, ![n, C]⟩ ![0] hB (inRange lim top idx h0 h5 h6 h8 h9 hR hS) i = 1#1 :=
    inRange_eq_one lim top N htop idx hr h0 h5 h6 h8 h9 hR hS _
  rw [hm, select_one]

end FillTake

end
-- ==== Proof.KernelStages.lean ====
/-
  The kernel program's host stretches, cut into the same named pieces as the reference's: the normalised row
  indices, the take of rows of a node table or of an edge table with its out-of-range rule (the gathered row kept
  where the normalised index lies in the table, a fill value elsewhere), the mean over the entries of each
  hyperedge and of each node, and two arrays of rows side by side. Each body is the printed operations themselves.
-/
import proofs.«420167_j40458591928749_2_alg».proof.Proof.Gen.KernelIdeal
import proofs.«420167_j40458591928749_2_alg».proof.Proof.FillTake

set_option maxRecDepth 16384

noncomputable section

namespace Cert.KernelIdeal.Stages

open Cert.KernelIdeal Cert.KernelIdeal.Gen Idealize.ShloMosaic Idealize.ShloMosaic.TcCoe Idealize.SL.Sem

variable {F : FTy → Type} [FloatOps F]

/-- The rows of a node table named by the node indices, by the take's rule. -/
def nodeTake (x : FVec F S50000x256 .f32) (idx : IVec S400000 32) : FVec F S400000x256 .f32 :=
  select
    (broadcastInDim S400000x256 ![0] bcast_S400000_S400000x256_0
      (FillTake.inRange 50000#32 49999#32 idx bcast_S_S400000 bcast_S400000_S400000x1_0 bcast_S_S400000x1 bcast_S1_S1x1_1
        bcast_S1x1_S400000x1_0_1 reducesTo_S400000x1_S400000_d1 h_S_))
    (Host.gather gather_S50000x256_S400000x1_S400000x256_1_0_n_n_0_1_1256 x
      (FillTake.wrapCol 50000#32 idx bcast_S_S400000 bcast_S400000_S400000x1_0))
    (broadcastInDim S400000x256 ![] bcast_S_S400000x256 (constant S_ .f32 0x7FC00000#32))

/-- The rows of an edge table named by the edge indices, by the take's rule. -/
def edgeTake (x : FVec F S20000x256 .f32) (idx : IVec S400000 32) : FVec F S400000x256 .f32 :=
  select
    (broadcastInDim S400000x256 ![0] bcast_S400000_S400000x256_0
      (FillTake.inRange 20000#32 19999#32 idx bcast_S_S400000 bcast_S400000_S400000x1_0 bcast_S_S400000x1 bcast_S1_S1x1_1
        bcast_S1x1_S400000x1_0_1 reducesTo_S400000x1_S400000_d1 h_S_))
    (Host.gather gather_S20000x256_S400000x1_S400000x256_1_0_n_n_0_1_1256 x
      (FillTake.wrapCol 20000#32 idx bcast_S_S400000 bcast_S400000_S400000x1_0))
    (broadcastInDim S400000x256 ![] bcast_S_S400000x256 (constant S_ .f32 0x7FC00000#32))

/-- The mean of the rows of each hyperedge: their sum over their number, the number raised to at least one. -/
def edgeMean (src : FVec F S400000x256 .f32) (seg : IVec S400000 32) : FVec F S20000x256 .f32 :=
  Host.divf
    (Host.scatterAdd scatter_S20000x256_S400000x1_S400000x256_1_0_0_1
      (broadcastInDim S20000x256 ![] bcast_S_S20000x256 (constant S_ .f32 0x00000000#32))
      (broadcastInDim S400000x1 ![0] bcast_S400000_S400000x1_0 seg) src)
    (broadcastInDim S20000x256 ![0, 1] bcast_S20000x1_S20000x256_0_1
      (maximumf
        (Host.scatterAdd scatter_S20000x1_S400000x1_S400000x1_1_0_0_1
          (broadcastInDim S20000x1 ![] bcast_S_S20000x1 (constant S_ .f32 0x00000000#32))
          (broadcastInDim S400000x1 ![0] bcast_S400000_S400000x1_0 seg)
          (broadcastInDim S400000x1 ![] bcast_S_S400000x1 (constant S_ .f32 0x3F800000#32)))
        (broadcastInDim S20000x1 ![] bcast_S_S20000x1 (constant S_ .f32 0x3F800000#32))))

/-- The mean of the rows of each node, likewise. -/
def nodeMean (src : FVec F S400000x256 .f32) (seg : IVec S400000 32) : FVec F S50000x256 .f32 :=
  Host.divf
    (Host.scatterAdd scatter_S50000x256_S400000x1_S400000x256_1_0_0_1
      (broadcastInDim S50000x256 ![] bcast_S_S50000x256 (constant S_ .f32 0x00000000#32))
      (broadcastInDim S400000x1 ![0] bcast_S400000_S400000x1_0 seg) src)
    (broadcastInDim S50000x256 ![0, 1] bcast_S50000x1_S50000x256_0_1
      (maximumf
        (Host.scatterAdd scatter_S50000x1_S400000x1_S400000x1_1_0_0_1
          (broadcastInDim S50000x1 ![] bcast_S_S50000x1 (constant S_ .f32 0x00000000#32))
          (broadcastInDim S400000x1 ![0] bcast_S400000_S400000x1_0 seg)
          (broadcastInDim S400000x1 ![] bcast_S_S400000x1 (constant S_ .f32 0x3F800000#32)))
        (broadcastInDim S50000x1 ![] bcast_S_S50000x1 (constant S_ .f32 0x3F800000#32))))

/-- Two arrays of rows side by side. -/
def sideBySide (a b : FVec F S400000x256 .f32) : FVec F S400000x512 .f32 :=
  concatenate S400000x512 1 [⟨S400000x256, a⟩, ⟨S400000x256, b⟩] concatenates_S400000x256_S400000x256_S400000x512_d1

end Cert.KernelIdeal.Stages

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Dense.lean ====
/-
  One dense layer, as a function of whole arrays.

  `dense x w b` is the array whose entry (r, c) is  Σ_k x(r, k) · w(k, c)  +  b(c)  on the extended reals.
  Two texts compute it:
    * a kernel body on one block of rows: a matrix product into the zero accumulator (its operands narrowed to
      bf16 first, which changes nothing at the ideal values) plus the bias laid along every row;
    * the host: a `dot_general` contracting the row's coordinate plus the bias broadcast in two steps.
  Both are that one sum, entry by entry; neither needs a law beyond reading each operation at an index.
  `halfMix u v` is the entrywise mean ½·u + ½·v with the two halves as the same binary word.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«420167_j40458591928749_2_alg».proof.Proof.LibPlainMatmul

noncomputable section

namespace HyperConv

open Idealize.ShloMosaic Idealize.ShloMosaic.ValueIdx

/-- Entry (r, c) of a dense layer: the row r of `x` against the column c of `w`, plus `b` at c. -/
def dense {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

theorem dense_apply {M K N : Nat} (x : (⟨2, ![M, K]⟩ : Shape).Idx → EReal) (w : (⟨2, ![K, N]⟩ : Shape).Idx → EReal)
    (b : (⟨1, ![N]⟩ : Shape).Idx → EReal) (r : Fin M) (c : Fin N) :
    dense x w b (ix2 r c) = (∑ k : Fin K, x (ix2 r k) * w (ix2 k c)) + b (ix1 c) := rfl

/-- The entrywise mean of two arrays, each half the word 0x3F000000. -/
def halfMix {s : Shape} (u v : s.Idx → EReal) : s.Idx → EReal :=
  fun i => Ideal.ofBits .f32 0x3F000000#32 * u i + Ideal.ofBits .f32 0x3F000000#32 * v i

/-- A kernel body's text on one block: the product into zero of the narrowed operands, plus the bias row. -/
theorem dense_of_matmul_bias {M K N : Nat} (d : DotDims ⟨2, ![M, K]⟩ ⟨2, ![K, N]⟩ ⟨2, ![M, N]⟩)
    (hd : d = DotDims.plain M K N)
    (x : FVec Ideal ⟨2, ![M, K]⟩ .f32) (w : FVec Ideal ⟨2, ![K, N]⟩ .f32) (b : FVec Ideal ⟨1, ![N]⟩ .f32)
    (hx : FTy.bf16.bits < FTy.f32.bits)
    (h1 : (⟨1, ![N]⟩ : Shape).ShapeCasts ⟨2, ![1, N]⟩) (h2 : (⟨2, ![1, N]⟩ : Shape).Broadcasts ⟨2, ![M, N]⟩) :
    addf (matmul (F := Ideal) d none (truncf .bf16 x hx) (truncf .bf16 w hx) (constant ⟨2, ![M, N]⟩ .f32 0x00000000#32))
        (broadcastTo ⟨2, ![M, N]⟩ (shapeCast ⟨2, ![1, N]⟩ b h1) h2)
      = dense x w b := by
  funext j
  obtain ⟨r, c, rfl⟩ : ∃ (r : Fin M) (c : Fin N), j = ix2 r c := ⟨j 0, j 1, eq_ix2 j⟩
  rw [addf_apply, PlainMatmul.matmul_zero_apply_of_eq d hd, broadcastTo_1b_ab_apply, shapeCast_a_1a_apply, dense_apply]
  rfl

/-- The host's text: a `dot_general` over the row's coordinate plus the bias broadcast to a row, then to every row. -/
theorem dense_of_dot_bias {M K N : Nat} (d : DotDims ⟨2, ![M, K]⟩ ⟨2, ![K, N]⟩ ⟨2, ![M, N]⟩)
    (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) d none x w)
        (broadcastInDim ⟨2, ![M, N]⟩ ![0, 1] h2 (broadcastInDim ⟨2, ![1, N]⟩ ![1] h1 b))
      = dense x w b := by
  subst hd
  funext j
  obtain ⟨r, c, rfl⟩ : ∃ (r : Fin M) (c : Fin N), j = ix2 r c := ⟨j 0, j 1, eq_ix2 j⟩
  rw [addf_apply, StackMember.dotGeneral_plain_apply, dense_apply]
  congr 1
  have hc : c.val = if N = 1 then 0 else c.val := by
    split
    · have := c.isLt; omega
    · rfl
  rw [broadcastInDim_apply ![0, 1] h2 _ (ix2 r c) (ix2 (0 : Fin 1) c) (by
        intro a; match a with
        | ⟨0, _⟩ => rfl
        | ⟨1, _⟩ => exact hc),
      broadcastInDim_apply ![1] h1 b (ix2 (0 : Fin 1) c) (ix1 c) (by
        intro a; match a with
        | ⟨0, _⟩ => exact hc)]

end HyperConv

end
-- ==== Proof.Layer0.lean ====
/-
  The first layer's launch: what its output array holds when the launch ends, as one function of the arrays it finds.
-/
import proofs.«420167_j40458591928749_2_alg».proof.Proof.Gen.KernelIdeal.Frame
import proofs.«420167_j40458591928749_2_alg».proof.Proof.Dense
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three arrays the launch reads, at their literal types. -/
abbrev rows (c : Dev nD) : FVec Ideal S50000x256 .f32 := V c main_arg0
abbrev weight (c : Dev nD) : FVec Ideal S256x256 .f32 := V c main_arg4
abbrev bias (c : Dev nD) : FVec Ideal S256 .f32 := V c main_arg5

/-- The all-zero offsets of a whole-buffer access, as the constant function. -/
theorem zero2 : (![0, 0] : Fin 2 → Nat) = fun _ => 0 := funext fun a => by fin_cases a <;> rfl
theorem zero1 : (![0] : Fin 1 → Nat) = fun _ => 0 := funext fun a => by fin_cases a; rfl

/-- The printed contraction is the plain one: rows against columns, nothing batched. -/
theorem dims_plain : dot_S5000x256_S256x256_S5000x256_1_0_0_1_n_n = DotDims.plain 5000 256 256 := rfl

/-- The body's payload on one block of rows is the dense layer of that block. -/
theorem block_dense (x : FVec Ideal S5000x256 .f32) (w : FVec Ideal S256x256 .f32) (b : FVec Ideal S256 .f32) :
    k0_pay1 (F := Ideal) x w b = HyperConv.dense x w b := by
  unfold k0_pay1
  exact HyperConv.dense_of_matmul_bias _ dims_plain x w b _ _ _

/-- A dense layer of a block of rows is the dense layer of the whole array, read at the block's rows:
    entry (r, c) needs only row r of the left operand, column c of the right and entry c of the bias. -/
theorem dense_at_rows {M m K N : Nat}
    (X : (⟨2, ![M, K]⟩ : Shape).Idx → EReal) (W : (⟨2, ![K, N]⟩ : Shape).Idx → EReal) (B : (⟨1, ![N]⟩ : Shape).Idx → EReal)
    (xb : (⟨2, ![m, K]⟩ : Shape).Idx → EReal) (wb : (⟨2, ![K, N]⟩ : Shape).Idx → EReal) (bb : (⟨1, ![N]⟩ : Shape).Idx → EReal)
    (r : Fin m) (cc : Fin N) (R : Fin M)
    (hx : ∀ k : Fin K, xb (ix2 r k) = X (ix2 R k))
    (hw : ∀ k : Fin K, wb (ix2 k cc) = W (ix2 k cc))
    (hb : bb (ix1 cc) = B (ix1 cc)) :
    HyperConv.dense xb wb bb (ix2 r cc) = HyperConv.dense X W B (ix2 R cc) := by
  rw [HyperConv.dense_apply, HyperConv.dense_apply, hb]
  exact congrArg (· + B (ix1 cc)) (Finset.sum_congr rfl fun k _ => by rw [hx k, hw k])

/-- The printed index maps, decided over the grid: the rows' window moves with the output's, the weight's and the
    bias's stay at their one block, and the output's block index is its point's. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every block of rows of the output is some point's. -/
theorem index_onto : ∀ q : Fin 10, ∃ t : Fin cfg0.N, win0_3.index t = ![q.val, 0] :=
  (by decide +kernel : ∀ q : Fin 10, ∃ t : Fin grid0.N, win0_3.index t = ![q.val, 0])

/-- What point t writes back is block t of the dense layer of the whole arrays. -/
theorem flushed_eq (c : Dev nD) (t : Fin cfg0.N) :
    (dat0 (F := Ideal) V c).flushed 3 t
      = ((cfg0.win 3).blk t).view.read (Elt Ideal) (HyperConv.dense (rows V c) (weight V c) (bias V c)) := by
  show (cfg0.win 3).cut (grid0.coords t) ((dat0 V c).after 3 t) = _
  rw [after0_3]
  unfold out0_3
  rw [View.canon_unit_zero zero2]
  simp only [View.ld_unit_zero (S := S5000x256) zero2, View.ld_unit_zero (S := S256x256) zero2, View.ld_unit_zero (S := S256) zero1]
  rw [block_dense]
  obtain ⟨e00, e01, e10, e11, e20, e31, e3⟩ := index_facts t
  funext y
  obtain ⟨r, cc, rfl⟩ : ∃ (r : Fin 5000) (cc : Fin 256), y = ix2 r cc := ⟨y 0, y 1, eq_ix2 y⟩
  have hq : win0_3.index t (0 : Fin 2) * 5000 + r.val < 50000 := by have := r.isLt; omega
  have hemb : ((cfg0.win 3).blk t).view.emb (ix2 r cc)
      = ix2 (⟨win0_3.index t (0 : Fin 2) * 5000 + r.val, hq⟩ : Fin 50000) cc := by
    funext a; apply Fin.ext
    match a with
    | ⟨0, _⟩ => show win0_3.index t (0 : Fin 2) * 5000 + 1 * r.val = win0_3.index t (0 : Fin 2) * 5000 + r.val; omega
    | ⟨1, _⟩ => show win0_3.index t (1 : Fin 2) * 256 + 1 * cc.val = cc.val; omega
  show HyperConv.dense (iblk0 V c 0 t) (iblk0 V c 1 t) (iblk0 V c 2 t) (ix2 r cc)
      = HyperConv.dense (rows V c) (weight V c) (bias V c) (((cfg0.win 3).blk t).view.emb (ix2 r cc))
  rw [hemb]
  refine dense_at_rows _ _ _ _ _ _ r cc _ ?_ ?_ ?_
  · intro k
    show V c main_arg0 (((cfg0.win 0).blk t).view.emb (ix2 r k)) = V c main_arg0 (ix2 (⟨win0_3.index t (0 : Fin 2) * 5000 + r.val, hq⟩ : Fin 50000) k)
    refine congrArg _ ?_
    funext a; apply Fin.ext
    match a with
    | ⟨0, _⟩ => show win0_0.index t (0 : Fin 2) * 5000 + 1 * r.val = win0_3.index t (0 : Fin 2) * 5000 + r.val; omega
    | ⟨1, _⟩ => show win0_0.index t (1 : Fin 2) * 256 + 1 * k.val = k.val; omega
  · intro k
    show V c main_arg4 (((cfg0.win 1).blk t).view.emb (ix2 k cc)) = V c main_arg4 (ix2 k cc)
    refine congrArg _ ?_
    funext a; apply Fin.ext
    match a with
    | ⟨0, _⟩ => show win0_1.index t (0 : Fin 2) * 256 + 1 * k.val = k.val; omega
    | ⟨1, _⟩ => show win0_1.index t (1 : Fin 2) * 256 + 1 * cc.val = cc.val; omega
  · show V c main_arg5 (((cfg0.win 2).blk t).view.emb (ix1 cc)) = V c main_arg5 (ix1 cc)
    refine congrArg _ ?_
    funext a; apply Fin.ext
    match a with
    | ⟨0, _⟩ => show win0_2.index t (0 : Fin 1) * 256 + 1 * cc.val = cc.val; omega

/-- An index of the output array is in point t's block iff each coordinate is in the block's range on its axis. -/
theorem mem_block (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v0).slice (win0_3.rect t)).set ↔ _
  rw [View.set_slice_whole, Rect.mem_set_unit]
  exact Iff.rfl

/-- Row r of the output is in the block of the point whose index is r / 5000: the blocks of rows fill the array. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

theorem value (c : Dev nD) :
    (dat0 (F := Ideal) V c).arrAt 3 cfg0.N = HyperConv.dense (rows V c) (weight V c) (bias V c) :=
  (dat0 (F := Ideal) V c).arrAt_eq_of_cover 3 _ (fun t _ => flushed_eq V c t) cover

end Cert.KernelIdeal.Layer0

end
-- ==== Proof.Layer1.lean ====
/-
  The second layer's launch: what its output array holds when the launch ends, as one function of the arrays it finds.
-/
import proofs.«420167_j40458591928749_2_alg».proof.Proof.Gen.KernelIdeal.Frame
import proofs.«420167_j40458591928749_2_alg».proof.Proof.Dense
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three arrays the launch reads, at their literal types. -/
abbrev rows (c : Dev nD) : FVec Ideal S400000x512 .f32 := V c main_v15
abbrev weight (c : Dev nD) : FVec Ideal S512x256 .f32 := V c main_arg6
abbrev bias (c : Dev nD) : FVec Ideal S256 .f32 := V c main_arg7

/-- The all-zero offsets of a whole-buffer access, as the constant function. -/
theorem zero2 : (![0, 0] : Fin 2 → Nat) = fun _ => 0 := funext fun a => by fin_cases a <;> rfl
theorem zero1 : (![0] : Fin 1 → Nat) = fun _ => 0 := funext fun a => by fin_cases a; rfl

/-- The printed contraction is the plain one: rows against columns, nothing batched. -/
theorem dims_plain : dot_S4000x512_S512x256_S4000x256_1_0_0_1_n_n = DotDims.plain 4000 512 256 := rfl

/-- The body's payload on one block of rows is the dense layer of that block (the cast of the block's shape
    to itself changes nothing). -/
theorem block_dense (x : FVec Ideal S4000x512 .f32) (w : FVec Ideal S512x256 .f32) (b : FVec Ideal S256 .f32) :
    k1_pay1 (F := Ideal) x w b = HyperConv.dense x w b := by
  unfold k1_pay1
  rw [shapeCast_self]
  exact HyperConv.dense_of_matmul_bias _ dims_plain x w b _ _ _

/-- A dense layer of a block of rows is the dense layer of the whole array, read at the block's rows:
    entry (r, c) needs only row r of the left operand, column c of the right and entry c of the bias. -/
theorem dense_at_rows {M m K N : Nat}
    (X : (⟨2, ![M, K]⟩ : Shape).Idx → EReal) (W : (⟨2, ![K, N]⟩ : Shape).Idx → EReal) (B : (⟨1, ![N]⟩ : Shape).Idx → EReal)
    (xb : (⟨2, ![m, K]⟩ : Shape).Idx → EReal) (wb : (⟨2, ![K, N]⟩ : Shape).Idx → EReal) (bb : (⟨1, ![N]⟩ : Shape).Idx → EReal)
    (r : Fin m) (cc : Fin N) (R : Fin M)
    (hx : ∀ k : Fin K, xb (ix2 r k) = X (ix2 R k))
    (hw : ∀ k : Fin K, wb (ix2 k cc) = W (ix2 k cc))
    (hb : bb (ix1 cc) = B (ix1 cc)) :
    HyperConv.dense xb wb bb (ix2 r cc) = HyperConv.dense X W B (ix2 R cc) := by
  rw [HyperConv.dense_apply, HyperConv.dense_apply, hb]
  exact congrArg (· + B (ix1 cc)) (Finset.sum_congr rfl fun k _ => by rw [hx k, hw k])

/-- The printed index maps, decided over the grid: the rows' window moves with the output's, the weight's and the
    bias's stay at their one block, and the output's block index is its point's. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 99 :=
  (by decide +kernel : ∀ t : Fin grid1.N, _)

/-- Every block of rows of the output is some point's. -/
theorem index_onto : ∀ q : Fin 100, ∃ t : Fin cfg1.N, win1_3.index t = ![q.val, 0] :=
  (by decide +kernel : ∀ q : Fin 100, ∃ t : Fin grid1.N, win1_3.index t = ![q.val, 0])

/-- What point t writes back is block t of the dense layer of the whole arrays. -/
theorem flushed_eq (c : Dev nD) (t : Fin cfg1.N) :
    (dat1 (F := Ideal) V c).flushed 3 t
      = ((cfg1.win 3).blk t).view.read (Elt Ideal) (HyperConv.dense (rows V c) (weight V c) (bias V c)) := by
  show (cfg1.win 3).cut (grid1.coords t) ((dat1 V c).after 3 t) = _
  rw [after1_3]
  unfold out1_3
  rw [View.canon_unit_zero zero2]
  simp only [View.ld_unit_zero (S := S4000x512) zero2, View.ld_unit_zero (S := S512x256) zero2, View.ld_unit_zero (S := S256) zero1]
  rw [block_dense]
  obtain ⟨e00, e01, e10, e11, e20, e31, e3⟩ := index_facts t
  funext y
  obtain ⟨r, cc, rfl⟩ : ∃ (r : Fin 4000) (cc : Fin 256), y = ix2 r cc := ⟨y 0, y 1, eq_ix2 y⟩
  have hq : win1_3.index t (0 : Fin 2) * 4000 + r.val < 400000 := by have := r.isLt; omega
  have hemb : ((cfg1.win 3).blk t).view.emb (ix2 r cc)
      = ix2 (⟨win1_3.index t (0 : Fin 2) * 4000 + r.val, hq⟩ : Fin 400000) cc := by
    funext a; apply Fin.ext
    match a with
    | ⟨0, _⟩ => show win1_3.index t (0 : Fin 2) * 4000 + 1 * r.val = win1_3.index t (0 : Fin 2) * 4000 + r.val; omega
    | ⟨1, _⟩ => show win1_3.index t (1 : Fin 2) * 256 + 1 * cc.val = cc.val; omega
  show HyperConv.dense (iblk1 V c 0 t) (iblk1 V c 1 t) (iblk1 V c 2 t) (ix2 r cc)
      = HyperConv.dense (rows V c) (weight V c) (bias V c) (((cfg1.win 3).blk t).view.emb (ix2 r cc))
  rw [hemb]
  refine dense_at_rows _ _ _ _ _ _ r cc _ ?_ ?_ ?_
  · intro k
    show V c main_v15 (((cfg1.win 0).blk t).view.emb (ix2 r k)) = V c main_v15 (ix2 (⟨win1_3.index t (0 : Fin 2) * 4000 + r.val, hq⟩ : Fin 400000) k)
    refine congrArg _ ?_
    funext a; apply Fin.ext
    match a with
    | ⟨0, _⟩ => show win1_0.index t (0 : Fin 2) * 4000 + 1 * r.val = win1_3.index t (0 : Fin 2) * 4000 + r.val; omega
    | ⟨1, _⟩ => show win1_0.index t (1 : Fin 2) * 512 + 1 * k.val = k.val; omega
  · intro k
    show V c main_arg6 (((cfg1.win 1).blk t).view.emb (ix2 k cc)) = V c main_arg6 (ix2 k cc)
    refine congrArg _ ?_
    funext a; apply Fin.ext
    match a with
    | ⟨0, _⟩ => show win1_1.index t (0 : Fin 2) * 512 + 1 * k.val = k.val; omega
    | ⟨1, _⟩ => show win1_1.index t (1 : Fin 2) * 256 + 1 * cc.val = cc.val; omega
  · show V c main_arg7 (((cfg1.win 2).blk t).view.emb (ix1 cc)) = V c main_arg7 (ix1 cc)
    refine congrArg _ ?_
    funext a; apply Fin.ext
    match a with
    | ⟨0, _⟩ => show win1_2.index t (0 : Fin 1) * 256 + 1 * cc.val = cc.val; omega

/-- An index of the output array is in point t's block iff each coordinate is in the block's range on its axis. -/
theorem mem_block (t : Fin cfg1.N) (i : S400000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v16).slice (win1_3.rect t)).set ↔ _
  rw [View.set_slice_whole, Rect.mem_set_unit]
  exact Iff.rfl

/-- Row r of the output is in the block of the point whose index is r / 4000: the blocks of rows fill the array. -/
theorem cover (i : S400000x256.Idx) :
    ∃ t : Fin cfg1.N, (cfg1.win 3).flush t = true ∧ i ∈ ((cfg1.win 3).blk t).view.set := by
  have hi0 : (i 0).val < 400000 := (i 0).isLt
  have hi1 : (i 1).val < 256 := (i 1).isLt
  obtain ⟨t, ht⟩ := index_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 256 ≤ (i 1).val ∧ (i 1).val < win1_3.index t (1 : Fin 2) * 256 + 256; omega

theorem value (c : Dev nD) :
    (dat1 (F := Ideal) V c).arrAt 3 cfg1.N = HyperConv.dense (rows V c) (weight V c) (bias V c) :=
  (dat1 (F := Ideal) V c).arrAt_eq_of_cover 3 _ (fun t _ => flushed_eq V c t) cover

end Cert.KernelIdeal.Layer1

end
-- ==== Proof.Layer2.lean ====
/-
  The third layer's launch: what its output array holds when the launch ends, as one function of the arrays it finds.
-/
import proofs.«420167_j40458591928749_2_alg».proof.Proof.Gen.KernelIdeal.Frame
import proofs.«420167_j40458591928749_2_alg».proof.Proof.Dense
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The four arrays the launch reads, at their literal types. -/
abbrev mean (c : Dev nD) : FVec Ideal S50000x256 .f32 := V c main_v27
abbrev skip (c : Dev nD) : FVec Ideal S50000x256 .f32 := V c main_arg1
abbrev weight (c : Dev nD) : FVec Ideal S256x256 .f32 := V c main_arg8
abbrev bias (c : Dev nD) : FVec Ideal S256 .f32 := V c main_arg9

/-- The all-zero offsets of a whole-buffer access, as the constant function. -/
theorem zero2 : (![0, 0] : Fin 2 → Nat) = fun _ => 0 := funext fun a => by fin_cases a <;> rfl
theorem zero1 : (![0] : Fin 1 → Nat) = fun _ => 0 := funext fun a => by fin_cases a; rfl

/-- The printed contraction is the plain one: rows against columns, nothing batched. -/
theorem dims_plain : dot_S2000x256_S256x256_S2000x256_1_0_0_1_n_n = DotDims.plain 2000 256 256 := rfl

/-- The two halves the body multiplies by and adds, entry by entry, are the mean of its two blocks. -/
theorem mix_eq (u v : FVec Ideal S2000x256 .f32) :
    addf (mulf (broadcast S2000x256 (Scalar.ofBits (F := Ideal) .f32 0x3F000000#32)) u)
        (mulf (broadcast S2000x256 (Scalar.ofBits (F := Ideal) .f32 0x3F000000#32)) v)
      = HyperConv.halfMix u v := rfl

/-- The body's payload on one block of rows is the dense layer of the mean of its two blocks (the cast of the
    block's shape to itself changes nothing). -/
theorem block_dense (u v : FVec Ideal S2000x256 .f32) (w : FVec Ideal S256x256 .f32) (b : FVec Ideal S256 .f32) :
    k2_pay1 (F := Ideal) u v w b = HyperConv.dense (HyperConv.halfMix u v) w b := by
  unfold k2_pay1
  rw [shapeCast_self]
  dsimp only
  rw [mix_eq]
  exact HyperConv.dense_of_matmul_bias _ dims_plain (HyperConv.halfMix u v) w b _ _ _

/-- The mean of two blocks at an entry is the mean of the whole arrays where the entry sits. -/
theorem halfMix_at {s s' : Shape} (u v : s.Idx → EReal) (U U' : s'.Idx → EReal) (y : s.Idx) (i : s'.Idx)
    (hu : u y = U i) (hv : v y = U' i) : HyperConv.halfMix u v y = HyperConv.halfMix U U' i := by
  unfold HyperConv.halfMix
  rw [hu, hv]

/-- A dense layer of a block of rows is the dense layer of the whole array, read at the block's rows:
    entry (r, c) needs only row r of the left operand, column c of the right and entry c of the bias. -/
theorem dense_at_rows {M m K N : Nat}
    (X : (⟨2, ![M, K]⟩ : Shape).Idx → EReal) (W : (⟨2, ![K, N]⟩ : Shape).Idx → EReal) (B : (⟨1, ![N]⟩ : Shape).Idx → EReal)
    (xb : (⟨2, ![m, K]⟩ : Shape).Idx → EReal) (wb : (⟨2, ![K, N]⟩ : Shape).Idx → EReal) (bb : (⟨1, ![N]⟩ : Shape).Idx → EReal)
    (r : Fin m) (cc : Fin N) (R : Fin M)
    (hx : ∀ k : Fin K, xb (ix2 r k) = X (ix2 R k))
    (hw : ∀ k : Fin K, wb (ix2 k cc) = W (ix2 k cc))
    (hb : bb (ix1 cc) = B (ix1 cc)) :
    HyperConv.dense xb wb bb (ix2 r cc) = HyperConv.dense X W B (ix2 R cc) := by
  rw [HyperConv.dense_apply, HyperConv.dense_apply, hb]
  exact congrArg (· + B (ix1 cc)) (Finset.sum_congr rfl fun k _ => by rw [hx k, hw k])

/-- The printed index maps, decided over the grid: the two row windows move with the output's, the weight's and
    the bias's stay at their one block, and the output's block index is its point's. -/
theorem index_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (1 : Fin 2) = 0 ∧ win2_4.index t (0 : Fin 2) ≤ 24 :=
  (by decide +kernel : ∀ t : Fin grid2.N, _)

/-- Every block of rows of the output is some point's. -/
theorem index_onto : ∀ q : Fin 25, ∃ t : Fin cfg2.N, win2_4.index t = ![q.val, 0] :=
  (by decide +kernel : ∀ q : Fin 25, ∃ t : Fin grid2.N, win2_4.index t = ![q.val, 0])

/-- What point t writes back is block t of the dense layer of the mean of the whole arrays. -/
theorem flushed_eq (c : Dev nD) (t : Fin cfg2.N) :
    (dat2 (F := Ideal) V c).flushed 4 t
      = ((cfg2.win 4).blk t).view.read (Elt Ideal)
          (HyperConv.dense (HyperConv.halfMix (mean V c) (skip V c)) (weight V c) (bias V c)) := by
  show (cfg2.win 4).cut (grid2.coords t) ((dat2 V c).after 4 t) = _
  rw [after2_4]
  unfold out2_4
  rw [View.canon_unit_zero zero2]
  simp only [View.ld_unit_zero (S := S2000x256) zero2, View.ld_unit_zero (S := S256x256) zero2, View.ld_unit_zero (S := S256) zero1]
  rw [block_dense]
  obtain ⟨e00, e01, e10, e11, e20, e21, e30, e41, e4⟩ := index_facts t
  funext y
  obtain ⟨r, cc, rfl⟩ : ∃ (r : Fin 2000) (cc : Fin 256), y = ix2 r cc := ⟨y 0, y 1, eq_ix2 y⟩
  have hq : win2_4.index t (0 : Fin 2) * 2000 + r.val < 50000 := by have := r.isLt; omega
  have hemb : ((cfg2.win 4).blk t).view.emb (ix2 r cc)
      = ix2 (⟨win2_4.index t (0 : Fin 2) * 2000 + r.val, hq⟩ : Fin 50000) cc := by
    funext a; apply Fin.ext
    match a with
    | ⟨0, _⟩ => show win2_4.index t (0 : Fin 2) * 2000 + 1 * r.val = win2_4.index t (0 : Fin 2) * 2000 + r.val; omega
    | ⟨1, _⟩ => show win2_4.index t (1 : Fin 2) * 256 + 1 * cc.val = cc.val; omega
  show HyperConv.dense (HyperConv.halfMix (iblk2 V c 0 t) (iblk2 V c 1 t)) (iblk2 V c 2 t) (iblk2 V c 3 t) (ix2 r cc)
      = HyperConv.dense (HyperConv.halfMix (mean V c) (skip V c)) (weight V c) (bias V c) (((cfg2.win 4).blk t).view.emb (ix2 r cc))
  rw [hemb]
  refine dense_at_rows _ _ _ _ _ _ r cc _ ?_ ?_ ?_
  · intro k
    refine halfMix_at _ _ _ _ _ _ ?_ ?_
    · show V c main_v27 (((cfg2.win 0).blk t).view.emb (ix2 r k)) = V c main_v27 (ix2 (⟨win2_4.index t (0 : Fin 2) * 2000 + r.val, hq⟩ : Fin 50000) k)
      refine congrArg _ ?_
      funext a; apply Fin.ext
      match a with
      | ⟨0, _⟩ => show win2_0.index t (0 : Fin 2) * 2000 + 1 * r.val = win2_4.index t (0 : Fin 2) * 2000 + r.val; omega
      | ⟨1, _⟩ => show win2_0.index t (1 : Fin 2) * 256 + 1 * k.val = k.val; omega
    · show V c main_arg1 (((cfg2.win 1).blk t).view.emb (ix2 r k)) = V c main_arg1 (ix2 (⟨win2_4.index t (0 : Fin 2) * 2000 + r.val, hq⟩ : Fin 50000) k)
      refine congrArg _ ?_
      funext a; apply Fin.ext
      match a with
      | ⟨0, _⟩ => show win2_1.index t (0 : Fin 2) * 2000 + 1 * r.val = win2_4.index t (0 : Fin 2) * 2000 + r.val; omega
      | ⟨1, _⟩ => show win2_1.index t (1 : Fin 2) * 256 + 1 * k.val = k.val; omega
  · intro k
    show V c main_arg8 (((cfg2.win 2).blk t).view.emb (ix2 k cc)) = V c main_arg8 (ix2 k cc)
    refine congrArg _ ?_
    funext a; apply Fin.ext
    match a with
    | ⟨0, _⟩ => show win2_2.index t (0 : Fin 2) * 256 + 1 * k.val = k.val; omega
    | ⟨1, _⟩ => show win2_2.index t (1 : Fin 2) * 256 + 1 * cc.val = cc.val; omega
  · show V c main_arg9 (((cfg2.win 3).blk t).view.emb (ix1 cc)) = V c main_arg9 (ix1 cc)
    refine congrArg _ ?_
    funext a; apply Fin.ext
    match a with
    | ⟨0, _⟩ => show win2_3.index t (0 : Fin 1) * 256 + 1 * cc.val = cc.val; omega

/-- An index of the output array is in point t's block iff each coordinate is in the block's range on its axis. -/
theorem mem_block (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v28).slice (win2_4.rect t)).set ↔ _
  rw [View.set_slice_whole, Rect.mem_set_unit]
  exact Iff.rfl

/-- Row r of the output is in the block of the point whose index is r / 2000: the blocks of rows fill the array. -/
theorem cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  obtain ⟨t, ht⟩ := index_onto ⟨(i 0).val / 2000, by omega⟩
  have q0 : win2_4.index t (0 : Fin 2) = (i 0).val / 2000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 256 ≤ (i 1).val ∧ (i 1).val < win2_4.index t (1 : Fin 2) * 256 + 256; omega

theorem value (c : Dev nD) :
    (dat2 (F := Ideal) V c).arrAt 4 cfg2.N
      = HyperConv.dense (HyperConv.halfMix (mean V c) (skip V c)) (weight V c) (bias V c) :=
  (dat2 (F := Ideal) V c).arrAt_eq_of_cover 4 _ (fun t _ => flushed_eq V c t) cover

end Cert.KernelIdeal.Layer2

end
-- ==== Proof.KernelValue.lean ====
/-
  What the kernel program leaves in its result buffer, as one function of its arguments.

  The program is three launches among stretches of host operations. Reading its segment boundaries from the last one
  back: the result is the third launch's output, a dense layer of the mean of the node means and the skip input; the
  node means are taken of the second launch's output; that launch's input is the gathered node rows beside the
  gathered hyperedge means; the hyperedge means are taken of the gathered rows of the first launch's output. Each host
  stretch is read once, over an arbitrary valuation at its entry, as the named piece it computes; an argument array
  is written by no stretch and by no launch, so at every boundary it still holds what it was launched with.
-/
import proofs.«420167_j40458591928749_2_alg».proof.Proof.Gen.KernelIdeal.Frame
import proofs.«420167_j40458591928749_2_alg».proof.Proof.KernelStages
import proofs.«420167_j40458591928749_2_alg».proof.Proof.Layer0
import proofs.«420167_j40458591928749_2_alg».proof.Proof.Layer1
import proofs.«420167_j40458591928749_2_alg».proof.Proof.Layer2
import Idealize.ShloMosaic.Lib.StableHlo.Run

set_option maxRecDepth 16384

noncomputable section

namespace Cert.KernelIdeal.Passing

open Cert.KernelIdeal Cert.KernelIdeal.Gen Idealize.ShloMosaic Idealize.ShloMosaic.TcCoe Idealize.SL.Sem
open Idealize.ShloMosaic.StableHlo

/-! ## Each host stretch, over any valuation at its entry -/

section Stretches

variable (G : Valuation τ sig (Elt Ideal))

set_option maxHeartbeats 4000000 in
/-- The first stretch takes the node rows of the first layer's output. -/
theorem take_of_layer :
    StableHlo.after hostOps1 G (Proc.devRef .tc main_v1)
      = Stages.nodeTake (F := Ideal) (G (Proc.devRef .tc main_v0)) (G (Proc.devRef .tc main_arg2)) := by
  after_results
  simp only [TRef.toBuf, TRef.ofBuf, cast_eq]
  rfl

set_option maxHeartbeats 4000000 in
/-- The second stretch is the mean over hyperedges. -/
theorem mean_over_edges :
    StableHlo.after hostOps1_1 G (Proc.devRef .tc main_v12)
      = Stages.edgeMean (F := Ideal) (G (Proc.devRef .tc main_v1)) (G (Proc.devRef .tc main_arg3)) := by
  after_results_simp
  rfl

set_option maxHeartbeats 4000000 in
/-- The third stretch takes the node rows of the node table itself. -/
theorem take_of_nodes :
    StableHlo.after hostOps1_2 G (Proc.devRef .tc main_v13)
      = Stages.nodeTake (F := Ideal) (G (Proc.devRef .tc main_arg0)) (G (Proc.devRef .tc main_arg2)) := by
  after_results
  simp only [TRef.toBuf, TRef.ofBuf, cast_eq]
  rfl

set_option maxHeartbeats 4000000 in
/-- The fourth stretch takes the hyperedge rows of the hyperedge means. -/
theorem take_of_edges :
    StableHlo.after hostOps1_3 G (Proc.devRef .tc main_v14)
      = Stages.edgeTake (F := Ideal) (G (Proc.devRef .tc main_v12)) (G (Proc.devRef .tc main_arg3)) := by
  after_results
  simp only [TRef.toBuf, TRef.ofBuf, cast_eq]
  rfl

/-- The fifth stretch puts the two takes side by side. -/
theorem joined :
    StableHlo.after hostOps1_4 G (Proc.devRef .tc main_v15)
      = Stages.sideBySide (F := Ideal) (G (Proc.devRef .tc main_v13)) (G (Proc.devRef .tc main_v14)) := by
  after_results_simp
  rfl

set_option maxHeartbeats 4000000 in
/-- The stretch after the second launch is the mean over nodes. -/
theorem mean_over_nodes :
    StableHlo.after hostOps2 G (Proc.devRef .tc main_v27)
      = Stages.nodeMean (F := Ideal) (G (Proc.devRef .tc main_v16)) (G (Proc.devRef .tc main_arg2)) := by
  after_results_simp
  rfl

set_option maxHeartbeats 4000000 in
/-- The third stretch leaves the hyperedge means where they are. -/
theorem edges_kept_by_take_of_nodes :
    StableHlo.after hostOps1_2 G (Proc.devRef .tc main_v12) = G (Proc.devRef .tc main_v12) := by
  after_results

set_option maxHeartbeats 4000000 in
/-- The fourth stretch leaves the node rows where they are. -/
theorem nodes_kept_by_take_of_edges :
    StableHlo.after hostOps1_3 G (Proc.devRef .tc main_v13) = G (Proc.devRef .tc main_v13) := by
  after_results

end Stretches

/-! ## The arguments, at the boundaries where a stretch or a launch reads them -/

section Boundaries

variable (m : (ℓ : Loc nD τ sig) → Buf (Elt Ideal) ℓ) (ρ : Dev nD → PrngReg) (c : Dev nD)

/-- The ten arguments as launched, at their literal types. -/
abbrev nodes : FVec Ideal S50000x256 .f32 := m ((c : Thread nD τ).loc main_arg0)
abbrev skip : FVec Ideal S50000x256 .f32 := m ((c : Thread nD τ).loc main_arg1)
abbrev vertex : IVec S400000 32 := m ((c : Thread nD τ).loc main_arg2)
abbrev edges : IVec S400000 32 := m ((c : Thread nD τ).loc main_arg3)
abbrev w1 : FVec Ideal S256x256 .f32 := m ((c : Thread nD τ).loc main_arg4)
abbrev b1 : FVec Ideal S256 .f32 := m ((c : Thread nD τ).loc main_arg5)
abbrev w2 : FVec Ideal S512x256 .f32 := m ((c : Thread nD τ).loc main_arg6)
abbrev b2 : FVec Ideal S256 .f32 := m ((c : Thread nD τ).loc main_arg7)
abbrev w3 : FVec Ideal S256x256 .f32 := m ((c : Thread nD τ).loc main_arg8)
abbrev b3 : FVec Ideal S256 .f32 := m ((c : Thread nD τ).loc main_arg9)

/-- After the first launch: its first input array holds what it held (an input window's array is only read). -/
theorem nodes_after_layer : W1 m ρ c (Proc.devRef .tc main_arg0) = nodes m c :=
  ((W1_arr m ρ c 0).trans (((dat0 (V0 m ρ) c).arrAt_in 0 rfl _).trans (A_eq0 (V0 m ρ) c 0))).trans rfl
theorem skip_after_layer : W1 m ρ c (Proc.devRef .tc main_arg1) = skip m c := (W1_of_ne m ρ c main_arg1 (by decide)).trans rfl
theorem vertex_after_layer : W1 m ρ c (Proc.devRef .tc main_arg2) = vertex m c := (W1_of_ne m ρ c main_arg2 (by decide)).trans rfl
theorem edges_after_layer : W1 m ρ c (Proc.devRef .tc main_arg3) = edges m c := (W1_of_ne m ρ c main_arg3 (by decide)).trans rfl
theorem w2_after_layer : W1 m ρ c (Proc.devRef .tc main_arg6) = w2 m c := (W1_of_ne m ρ c main_arg6 (by decide)).trans rfl
theorem b2_after_layer : W1 m ρ c (Proc.devRef .tc main_arg7) = b2 m c := (W1_of_ne m ρ c main_arg7 (by decide)).trans rfl
theorem w3_after_layer : W1 m ρ c (Proc.devRef .tc main_arg8) = w3 m c := (W1_of_ne m ρ c main_arg8 (by decide)).trans rfl
theorem b3_after_layer : W1 m ρ c (Proc.devRef .tc main_arg9) = b3 m c := (W1_of_ne m ρ c main_arg9 (by decide)).trans rfl

set_option maxHeartbeats 4000000 in
theorem edges_at_mean : W2 m ρ c (Proc.devRef .tc main_arg3) = edges m c :=
  (show W2 m ρ c (Proc.devRef .tc main_arg3) = W1 m ρ c (Proc.devRef .tc main_arg3) by after_results).trans (edges_after_layer m ρ c)
set_option maxHeartbeats 4000000 in
theorem nodes_at_take : W3 m ρ c (Proc.devRef .tc main_arg0) = nodes m c :=
  (show W3 m ρ c (Proc.devRef .tc main_arg0) = W1 m ρ c (Proc.devRef .tc main_arg0) by after_results).trans (nodes_after_layer m ρ c)
set_option maxHeartbeats 4000000 in
theorem vertex_at_take : W3 m ρ c (Proc.devRef .tc main_arg2) = vertex m c :=
  (show W3 m ρ c (Proc.devRef .tc main_arg2) = W1 m ρ c (Proc.devRef .tc main_arg2) by after_results).trans (vertex_after_layer m ρ c)
set_option maxHeartbeats 4000000 in
theorem edges_at_take : W4 m ρ c (Proc.devRef .tc main_arg3) = edges m c :=
  (show W4 m ρ c (Proc.devRef .tc main_arg3) = W1 m ρ c (Proc.devRef .tc main_arg3) by after_results).trans (edges_after_layer m ρ c)
set_option maxHeartbeats 4000000 in
theorem w2_at_entry : W6 m ρ c (Proc.devRef .tc main_arg6) = w2 m c :=
  (show W6 m ρ c (Proc.devRef .tc main_arg6) = W1 m ρ c (Proc.devRef .tc main_arg6) by after_results).trans (w2_after_layer m ρ c)
set_option maxHeartbeats 4000000 in
theorem b2_at_entry : W6 m ρ c (Proc.devRef .tc main_arg7) = b2 m c :=
  (show W6 m ρ c (Proc.devRef .tc main_arg7) = W1 m ρ c (Proc.devRef .tc main_arg7) by after_results).trans (b2_after_layer m ρ c)
set_option maxHeartbeats 4000000 in
theorem vertex_at_mean : W7 m ρ c (Proc.devRef .tc main_arg2) = vertex m c :=
  (W7_of_ne m ρ c main_arg2 (by decide)).trans
    ((show W6 m ρ c (Proc.devRef .tc main_arg2) = W1 m ρ c (Proc.devRef .tc main_arg2) by after_results).trans (vertex_after_layer m ρ c))
set_option maxHeartbeats 4000000 in
theorem skip_at_entry : W8 m ρ c (Proc.devRef .tc main_arg1) = skip m c :=
  (show StableHlo.after hostOps2 (W7 m ρ c) (Proc.devRef .tc main_arg1) = W7 m ρ c (Proc.devRef .tc main_arg1) by
    generalize W7 m ρ c = G; after_results).trans
  ((W7_of_ne m ρ c main_arg1 (by decide)).trans
    ((show W6 m ρ c (Proc.devRef .tc main_arg1) = W1 m ρ c (Proc.devRef .tc main_arg1) by after_results).trans (skip_after_layer m ρ c)))
set_option maxHeartbeats 4000000 in
theorem w3_at_entry : W8 m ρ c (Proc.devRef .tc main_arg8) = w3 m c :=
  (show StableHlo.after hostOps2 (W7 m ρ c) (Proc.devRef .tc main_arg8) = W7 m ρ c (Proc.devRef .tc main_arg8) by
    generalize W7 m ρ c = G; after_results).trans
  ((W7_of_ne m ρ c main_arg8 (by decide)).trans
    ((show W6 m ρ c (Proc.devRef .tc main_arg8) = W1 m ρ c (Proc.devRef .tc main_arg8) by after_results).trans (w3_after_layer m ρ c)))
set_option maxHeartbeats 4000000 in
theorem b3_at_entry : W8 m ρ c (Proc.devRef .tc main_arg9) = b3 m c :=
  (show StableHlo.after hostOps2 (W7 m ρ c) (Proc.devRef .tc main_arg9) = W7 m ρ c (Proc.devRef .tc main_arg9) by
    generalize W7 m ρ c = G; after_results).trans
  ((W7_of_ne m ρ c main_arg9 (by decide)).trans
    ((show W6 m ρ c (Proc.devRef .tc main_arg9) = W1 m ρ c (Proc.devRef .tc main_arg9) by after_results).trans (b3_after_layer m ρ c)))

/-! ## From the result back to the launch -/

/-- The first launch's output: the first dense layer of the node table. -/
theorem layer_out : W1 m ρ c (Proc.devRef .tc main_v0) = HyperConv.dense (nodes m c) (w1 m c) (b1 m c) :=
  (W1_arr m ρ c 3).trans (Layer0.value (V0 m ρ) c)

/-- The second launch's input: the node rows beside the hyperedge means' rows. -/
theorem entry_rows :
    W6 m ρ c (Proc.devRef .tc main_v15)
      = Stages.sideBySide (F := Ideal) (Stages.nodeTake (F := Ideal) (nodes m c) (vertex m c))
          (Stages.edgeTake (F := Ideal) (Stages.edgeMean (F := Ideal) (Stages.nodeTake (F := Ideal) (HyperConv.dense (nodes m c) (w1 m c) (b1 m c)) (vertex m c))
            (edges m c)) (edges m c)) := by
  have h15 : W6 m ρ c (Proc.devRef .tc main_v15)
      = Stages.sideBySide (F := Ideal) (W5 m ρ c (Proc.devRef .tc main_v13)) (W5 m ρ c (Proc.devRef .tc main_v14)) := joined (W5 m ρ c)
  have h13 : W5 m ρ c (Proc.devRef .tc main_v13) = W4 m ρ c (Proc.devRef .tc main_v13) := nodes_kept_by_take_of_edges (W4 m ρ c)
  have h13' : W4 m ρ c (Proc.devRef .tc main_v13)
      = Stages.nodeTake (F := Ideal) (W3 m ρ c (Proc.devRef .tc main_arg0)) (W3 m ρ c (Proc.devRef .tc main_arg2)) := take_of_nodes (W3 m ρ c)
  have h14 : W5 m ρ c (Proc.devRef .tc main_v14)
      = Stages.edgeTake (F := Ideal) (W4 m ρ c (Proc.devRef .tc main_v12)) (W4 m ρ c (Proc.devRef .tc main_arg3)) := take_of_edges (W4 m ρ c)
  have h12 : W4 m ρ c (Proc.devRef .tc main_v12) = W3 m ρ c (Proc.devRef .tc main_v12) := edges_kept_by_take_of_nodes (W3 m ρ c)
  have h12' : W3 m ρ c (Proc.devRef .tc main_v12)
      = Stages.edgeMean (F := Ideal) (W2 m ρ c (Proc.devRef .tc main_v1)) (W2 m ρ c (Proc.devRef .tc main_arg3)) := mean_over_edges (W2 m ρ c)
  have h1 : W2 m ρ c (Proc.devRef .tc main_v1)
      = Stages.nodeTake (F := Ideal) (W1 m ρ c (Proc.devRef .tc main_v0)) (W1 m ρ c (Proc.devRef .tc main_arg2)) := take_of_layer (W1 m ρ c)
  rw [h15, h13, h13', h14, h12, h12', h1, layer_out m ρ c, nodes_at_take m ρ c, vertex_at_take m ρ c, edges_at_take m ρ c,
    edges_at_mean m ρ c, vertex_after_layer m ρ c]

/-- The second launch's output: the second dense layer of those rows. -/
theorem entry_layer_out :
    W7 m ρ c (Proc.devRef .tc main_v16)
      = HyperConv.dense (W6 m ρ c (Proc.devRef .tc main_v15)) (w2 m c) (b2 m c) := by
  have h : W7 m ρ c (Proc.devRef .tc main_v16)
      = HyperConv.dense (W6 m ρ c (Proc.devRef .tc main_v15)) (W6 m ρ c (Proc.devRef .tc main_arg6))
          (W6 m ρ c (Proc.devRef .tc main_arg7)) := (W7_arr m ρ c 3).trans (Layer1.value (V6 m ρ) c)
  rw [h, w2_at_entry m ρ c, b2_at_entry m ρ c]

/-- THE RESULT: the third dense layer of the mean of the node means and the skip input. -/
theorem result :
    W9 m ρ c (Proc.devRef .tc main_v28)
      = HyperConv.dense
          (HyperConv.halfMix
            (Stages.nodeMean (F := Ideal)
              (HyperConv.dense
                (Stages.sideBySide (F := Ideal) (Stages.nodeTake (F := Ideal) (nodes m c) (vertex m c))
                  (Stages.edgeTake (F := Ideal) (Stages.edgeMean (F := Ideal) (Stages.nodeTake (F := Ideal) (HyperConv.dense (nodes m c) (w1 m c) (b1 m c)) (vertex m c))
                    (edges m c)) (edges m c)))
                (w2 m c) (b2 m c))
              (vertex m c))
            (skip m c))
          (w3 m c) (b3 m c) := by
  have h28 : W9 m ρ c (Proc.devRef .tc main_v28)
      = HyperConv.dense (HyperConv.halfMix (W8 m ρ c (Proc.devRef .tc main_v27)) (W8 m ρ c (Proc.devRef .tc main_arg1)))
          (W8 m ρ c (Proc.devRef .tc main_arg8)) (W8 m ρ c (Proc.devRef .tc main_arg9)) :=
    (W9_arr m ρ c 4).trans (Layer2.value (V8 m ρ) c)
  have h27 : W8 m ρ c (Proc.devRef .tc main_v27)
      = Stages.nodeMean (F := Ideal) (W7 m ρ c (Proc.devRef .tc main_v16)) (W7 m ρ c (Proc.devRef .tc main_arg2)) := mean_over_nodes (W7 m ρ c)
  rw [h28, h27, entry_layer_out m ρ c, entry_rows m ρ c, vertex_at_mean m ρ c, skip_at_entry m ρ c, w3_at_entry m ρ c,
    b3_at_entry m ρ c]

/-- The message passing over the kernel program's own pieces, as a function of the launch memory. -/
def passed : FVec Ideal S50000x256 .f32 :=
  HyperConv.dense
          (HyperConv.halfMix
            (Stages.nodeMean (F := Ideal)
              (HyperConv.dense
                (Stages.sideBySide (F := Ideal) (Stages.nodeTake (F := Ideal) (nodes m c) (vertex m c))
                  (Stages.edgeTake (F := Ideal) (Stages.edgeMean (F := Ideal) (Stages.nodeTake (F := Ideal) (HyperConv.dense (nodes m c) (w1 m c) (b1 m c)) (vertex m c))
                    (edges m c)) (edges m c)))
                (w2 m c) (b2 m c))
              (vertex m c))
            (skip m c))
          (w3 m c) (b3 m c)

/-- The result buffer holds the message passing of the arguments. -/
theorem result_named : W9 m ρ c (Proc.devRef .tc main_v28) = passed m c := result m ρ c

end Boundaries

end Cert.KernelIdeal.Passing

end
-- ==== Proof.ReferenceValue.lean ====
/-
  The reference's result as one function of its arguments.

  The host program is three dense layers around gathers of rows and means over segments. Its generated run states the
  result as the operations' composed term; here that term is cut into named pieces whose bodies are the printed
  operations themselves: the normalised row indices, a gather of rows of a node table or of an edge table, the mean
  over the entries of each hyperedge and of each node (a scatter-add of the rows over a scatter-add of ones, the count
  raised to at least one), the two halves side by side, a dense layer, and the mean of two arrays. At the ideal
  values a layer is `HyperConv.dense` and the mean of two arrays `HyperConv.halfMix`, entry by entry.
-/
import proofs.«420167_j40458591928749_2_alg».proof.Proof.Gen.ReferenceIdeal.Run
import proofs.«420167_j40458591928749_2_alg».proof.Proof.Dense

set_option maxRecDepth 16384

noncomputable section

namespace Cert.ReferenceIdeal.Stages

open Cert.ReferenceIdeal Cert.ReferenceIdeal.Gen Idealize.ShloMosaic Idealize.ShloMosaic.TcCoe Idealize.SL.Sem
open Idealize.ShloMosaic.ValueIdx

variable {F : FTy → Type} [FloatOps F]

/-- Row indices with a negative one moved up by the table's height, as a column of start indices. -/
def wrapRows (lim : BitVec 32) (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 lim))) idx)

/-- The rows of a node table named by the node indices. -/
def nodeRows (x : FVec F S50000x256 .f32) (idx : IVec S400000 32) : FVec F S400000x256 .f32 :=
  Host.gather gather_S50000x256_S400000x1_S400000x256_1_0_n_n_0_1_1256 x (wrapRows 50000#32 idx)

/-- The rows of an edge table named by the edge indices. -/
def edgeRows (x : FVec F S20000x256 .f32) (idx : IVec S400000 32) : FVec F S400000x256 .f32 :=
  Host.gather gather_S20000x256_S400000x1_S400000x256_1_0_n_n_0_1_1256 x (wrapRows 20000#32 idx)

/-- The mean of the rows of each hyperedge: their sum over their number, the number raised to at least one. -/
def edgeMean (src : FVec F S400000x256 .f32) (seg : IVec S400000 32) : FVec F S20000x256 .f32 :=
  Host.divf
    (Host.scatterAdd scatter_S20000x256_S400000x1_S400000x256_1_0_0_1
      (broadcastInDim S20000x256 ![] bcast_S_S20000x256 (constant S_ .f32 0x00000000#32))
      (broadcastInDim S400000x1 ![0] bcast_S400000_S400000x1_0 seg) src)
    (broadcastInDim S20000x256 ![0, 1] bcast_S20000x1_S20000x256_0_1
      (maximumf
        (Host.scatterAdd scatter_S20000x1_S400000x1_S400000x1_1_0_0_1
          (broadcastInDim S20000x1 ![] bcast_S_S20000x1 (constant S_ .f32 0x00000000#32))
          (broadcastInDim S400000x1 ![0] bcast_S400000_S400000x1_0 seg)
          (broadcastInDim S400000x1 ![] bcast_S_S400000x1 (constant S_ .f32 0x3F800000#32)))
        (broadcastInDim S20000x1 ![] bcast_S_S20000x1 (constant S_ .f32 0x3F800000#32))))

/-- The mean of the rows of each node, likewise. -/
def nodeMean (src : FVec F S400000x256 .f32) (seg : IVec S400000 32) : FVec F S50000x256 .f32 :=
  Host.divf
    (Host.scatterAdd scatter_S50000x256_S400000x1_S400000x256_1_0_0_1
      (broadcastInDim S50000x256 ![] bcast_S_S50000x256 (constant S_ .f32 0x00000000#32))
      (broadcastInDim S400000x1 ![0] bcast_S400000_S400000x1_0 seg) src)
    (broadcastInDim S50000x256 ![0, 1] bcast_S50000x1_S50000x256_0_1
      (maximumf
        (Host.scatterAdd scatter_S50000x1_S400000x1_S400000x1_1_0_0_1
          (broadcastInDim S50000x1 ![] bcast_S_S50000x1 (constant S_ .f32 0x00000000#32))
          (broadcastInDim S400000x1 ![0] bcast_S400000_S400000x1_0 seg)
          (broadcastInDim S400000x1 ![] bcast_S_S400000x1 (constant S_ .f32 0x3F800000#32)))
        (broadcastInDim S50000x1 ![] bcast_S_S50000x1 (constant S_ .f32 0x3F800000#32))))

/-- Two arrays of rows side by side. -/
def sideBySide (a b : FVec F S400000x256 .f32) : FVec F S400000x512 .f32 :=
  concatenate S400000x512 1 [⟨S400000x256, a⟩, ⟨S400000x256, b⟩] concatenates_S400000x256_S400000x256_S400000x512_d1

/-- A dense layer over the node table's rows, as the host writes it. -/
def nodeLayer (x : FVec F S50000x256 .f32) (w : FVec F S256x256 .f32) (b : FVec F S256 .f32) : FVec F S50000x256 .f32 :=
  addf (Host.dotGeneral dot_S50000x256_S256x256_S50000x256_1_0_0_1_n_n none x w)
    (broadcastInDim S50000x256 ![0, 1] bcast_S1x256_S50000x256_0_1 (broadcastInDim S1x256 ![1] bcast_S256_S1x256_1 b))

/-- A dense layer over the incidence entries' rows, as the host writes it. -/
def entryLayer (x : FVec F S400000x512 .f32) (w : FVec F S512x256 .f32) (b : FVec F S256 .f32) : FVec F S400000x256 .f32 :=
  addf (Host.dotGeneral dot_S400000x512_S512x256_S400000x256_1_0_0_1_n_n none x w)
    (broadcastInDim S400000x256 ![0, 1] bcast_S1x256_S400000x256_0_1 (broadcastInDim S1x256 ![1] bcast_S256_S1x256_1 b))

/-- Half of one array plus half of another, as the host writes it. -/
def halves (u v : FVec F S50000x256 .f32) : FVec F S50000x256 .f32 :=
  addf (mulf (broadcastInDim S50000x256 ![] bcast_S_S50000x256 (constant S_ .f32 0x3F000000#32)) u)
    (mulf (broadcastInDim S50000x256 ![] bcast_S_S50000x256 (constant S_ .f32 0x3F000000#32)) v)

/-- The whole message passing, over named layers `l1`, `l2`, `l3` and a named mix: nodes to incidence entries, mean
    over hyperedges, back to entries beside the nodes' own rows, second layer, mean over nodes, mix with the
    skip input, third layer. -/
def passing (l1 : FVec F S50000x256 .f32 → FVec F S256x256 .f32 → FVec F S256 .f32 → FVec F S50000x256 .f32)
    (l2 : FVec F S400000x512 .f32 → FVec F S512x256 .f32 → FVec F S256 .f32 → FVec F S400000x256 .f32)
    (mix : FVec F S50000x256 .f32 → FVec F S50000x256 .f32 → FVec F S50000x256 .f32)
    (take : FVec F S50000x256 .f32 → IVec S400000 32 → FVec F S400000x256 .f32)
    (takeE : FVec F S20000x256 .f32 → IVec S400000 32 → FVec F S400000x256 .f32)
    (X X0 : FVec F S50000x256 .f32) (vertex edges : IVec S400000 32) (W1 : FVec F S256x256 .f32) (b1 : FVec F S256 .f32)
    (W2 : FVec F S512x256 .f32) (b2 : FVec F S256 .f32) (W3 : FVec F S256x256 .f32) (b3 : FVec F S256 .f32) :
    FVec F S50000x256 .f32 :=
  l1 (mix (nodeMean (l2 (sideBySide (take X vertex) (takeE (edgeMean (take (l1 X W1 b1) vertex) edges) edges)) W2 b2) vertex) X0) W3 b3

variable (m : (ℓ : Loc nD τ sig) → Buf (Elt F) ℓ) (ρ : Dev nD → PrngReg)

/-- The generated run with its result named: the message passing over the host's own layers. -/
theorem run_named :
    θ_run defs (onTc (τ := τ) (main (F := F))) ⟨m, fun _ => 0, ρ⟩ fun r => ∀ c : Dev nD,
      r.2.mem ((c.tc : Thread nD τ).loc main_v60)
        = passing nodeLayer entryLayer halves nodeRows edgeRows
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  unfold passing nodeLayer entryLayer halves nodeRows edgeRows nodeMean edgeMean sideBySide wrapRows
  exact Cert.ReferenceIdeal.Value.run m ρ

/-! ## At the ideal values -/

theorem nodeDot_plain : dot_S50000x256_S256x256_S50000x256_1_0_0_1_n_n = DotDims.plain 50000 256 256 := rfl
theorem entryDot_plain : dot_S400000x512_S512x256_S400000x256_1_0_0_1_n_n = DotDims.plain 400000 512 256 := rfl

/-- The host's node layer is the dense layer, entry by entry. -/
theorem nodeLayer_eq (x : FVec Ideal S50000x256 .f32) (w : FVec Ideal S256x256 .f32) (b : FVec Ideal S256 .f32) :
    nodeLayer (F := Ideal) x w b = HyperConv.dense x w b :=
  HyperConv.dense_of_dot_bias _ nodeDot_plain x w b _ _

/-- The host's entry layer is the dense layer, entry by entry. -/
theorem entryLayer_eq (x : FVec Ideal S400000x512 .f32) (w : FVec Ideal S512x256 .f32) (b : FVec Ideal S256 .f32) :
    entryLayer (F := Ideal) x w b = HyperConv.dense x w b :=
  HyperConv.dense_of_dot_bias _ entryDot_plain x w b _ _

/-- The host's two halves are the entrywise mean. -/
theorem halves_eq (u v : FVec Ideal S50000x256 .f32) : halves (F := Ideal) u v = HyperConv.halfMix u v := by
  funext i
  rfl

end Cert.ReferenceIdeal.Stages

end
-- ==== Proof.StageBridge.lean ====
/-
  The kernel program's host pieces are the reference's: the two means and the side-by-side join are the same
  operations with the same dimension records, and each take, when no index is out of range, is the reference's plain
  gather at the same normalised indices.
-/
import proofs.«420167_j40458591928749_2_alg».proof.Proof.KernelStages
import proofs.«420167_j40458591928749_2_alg».proof.Proof.ReferenceValue
import proofs.«420167_j40458591928749_2_alg».proof.Proof.FillTake

set_option maxRecDepth 16384

noncomputable section

namespace Cert.StageBridge

open Idealize.ShloMosaic

variable {F : FTy → Type} [FloatOps F]

/-! The two programs print the same dimension records: equal field by field, their shape conditions being proofs. -/

private theorem scatterEdgeRows_eq : Cert.KernelIdeal.scatter_S20000x256_S400000x1_S400000x256_1_0_0_1
    = Cert.ReferenceIdeal.scatter_S20000x256_S400000x1_S400000x256_1_0_0_1 := rfl
private theorem scatterEdgeCount_eq : Cert.KernelIdeal.scatter_S20000x1_S400000x1_S400000x1_1_0_0_1
    = Cert.ReferenceIdeal.scatter_S20000x1_S400000x1_S400000x1_1_0_0_1 := rfl
private theorem scatterNodeRows_eq : Cert.KernelIdeal.scatter_S50000x256_S400000x1_S400000x256_1_0_0_1
    = Cert.ReferenceIdeal.scatter_S50000x256_S400000x1_S400000x256_1_0_0_1 := rfl
private theorem scatterNodeCount_eq : Cert.KernelIdeal.scatter_S50000x1_S400000x1_S400000x1_1_0_0_1
    = Cert.ReferenceIdeal.scatter_S50000x1_S400000x1_S400000x1_1_0_0_1 := rfl
private theorem gatherNode_eq : Cert.KernelIdeal.gather_S50000x256_S400000x1_S400000x256_1_0_n_n_0_1_1256
    = Cert.ReferenceIdeal.gather_S50000x256_S400000x1_S400000x256_1_0_n_n_0_1_1256 := rfl
private theorem gatherEdge_eq : Cert.KernelIdeal.gather_S20000x256_S400000x1_S400000x256_1_0_n_n_0_1_1256
    = Cert.ReferenceIdeal.gather_S20000x256_S400000x1_S400000x256_1_0_n_n_0_1_1256 := rfl

theorem edgeMean_eq (src : FVec F ⟨2, ![400000, 256]⟩ .f32) (seg : IVec ⟨1, ![400000]⟩ 32) :
    Cert.KernelIdeal.Stages.edgeMean src seg = Cert.ReferenceIdeal.Stages.edgeMean src seg := by
  unfold Cert.KernelIdeal.Stages.edgeMean Cert.ReferenceIdeal.Stages.edgeMean
  rw [scatterEdgeRows_eq, scatterEdgeCount_eq]

theorem nodeMean_eq (src : FVec F ⟨2, ![400000, 256]⟩ .f32) (seg : IVec ⟨1, ![400000]⟩ 32) :
    Cert.KernelIdeal.Stages.nodeMean src seg = Cert.ReferenceIdeal.Stages.nodeMean src seg := by
  unfold Cert.KernelIdeal.Stages.nodeMean Cert.ReferenceIdeal.Stages.nodeMean
  rw [scatterNodeRows_eq, scatterNodeCount_eq]

theorem sideBySide_eq (a b : FVec F ⟨2, ![400000, 256]⟩ .f32) :
    Cert.KernelIdeal.Stages.sideBySide a b = Cert.ReferenceIdeal.Stages.sideBySide a b := by
  unfold Cert.KernelIdeal.Stages.sideBySide Cert.ReferenceIdeal.Stages.sideBySide
  rfl

theorem nodeTake_eq (x : FVec F ⟨2, ![50000, 256]⟩ .f32) (idx : IVec ⟨1, ![400000]⟩ 32)
    (hr : ∀ j, 0 ≤ (idx j).toInt ∧ (idx j).toInt < 50000) :
    Cert.KernelIdeal.Stages.nodeTake x idx = Cert.ReferenceIdeal.Stages.nodeRows x idx := by
  unfold Cert.KernelIdeal.Stages.nodeTake
  rw [FillTake.select_inRange_eq 50000#32 49999#32 50000 (by decide) (by decide) idx hr]
  unfold Cert.ReferenceIdeal.Stages.nodeRows Cert.ReferenceIdeal.Stages.wrapRows FillTake.wrapCol
  rw [gatherNode_eq]

theorem edgeTake_eq (x : FVec F ⟨2, ![20000, 256]⟩ .f32) (idx : IVec ⟨1, ![400000]⟩ 32)
    (hr : ∀ j, 0 ≤ (idx j).toInt ∧ (idx j).toInt < 20000) :
    Cert.KernelIdeal.Stages.edgeTake x idx = Cert.ReferenceIdeal.Stages.edgeRows x idx := by
  unfold Cert.KernelIdeal.Stages.edgeTake
  rw [FillTake.select_inRange_eq 20000#32 19999#32 20000 (by decide) (by decide) idx hr]
  unfold Cert.ReferenceIdeal.Stages.edgeRows Cert.ReferenceIdeal.Stages.wrapRows FillTake.wrapCol
  rw [gatherEdge_eq]

end Cert.StageBridge

end
-- ==== Proof.IndexRange.lean ====
/-
  What the precondition says of the two index arrays: every entry of the node indices lies in [0, 50000) and every
  entry of the hyperedge indices in [0, 20000), as signed integers.
-/
import proofs.«420167_j40458591928749_2_alg».proof.Pre_finite_inputs
import Idealize.ShloMosaic.Lib.ReduceAll
import Idealize.ShloMosaic.Lib.ValueIdx
import Idealize.ShloMosaic.Lib.StableHlo.Predicate

noncomputable section

namespace Cert.IndexRange

open Idealize.ShloMosaic Idealize.ShloMosaic.ValueIdx Cert.Pre_finite_inputs

variable [Cert.Pre_finite_inputs.Facts]

/-- One element of the operand of `all((idx ≥ 0) ∧ (idx < bound))` being 1 says that the index, read signed, lies in
    [0, N), where N is the bound read signed. -/
private theorem range_of_bits (x bound : BitVec 32) (N : Int) (hb : bound.toInt = N)
    (e : IntOp.andi (IntOp.cmpi .sge x 0#32) (IntOp.cmpi .slt x bound) = 1#1) : 0 ≤ x.toInt ∧ x.toInt < N := by
  obtain ⟨e1, e2⟩ := IntOp.andi_eq_one.1 e
  rw [IntOp.cmpi_sge, show (0#32 : BitVec 32).toInt = 0 from by decide] at e1
  rw [IntOp.cmpi_slt, hb] at e2
  exact ⟨e1, e2⟩

theorem of_pre {F : FTy → Type} [FloatOps F] (a0 a1 : FVec F S50000x256 .f32) (a2 a3 : IVec S400000 32)
    (a4 : FVec F S256x256 .f32) (a5 : FVec F S256 .f32) (a6 : FVec F S512x256 .f32) (a7 : FVec F S256 .f32)
    (a8 : FVec F S256x256 .f32) (a9 : FVec F S256 .f32)
    (h : Cert.Pre_finite_inputs.fn (F := F) a0 a1 a2 a3 a4 a5 a6 a7 a8 a9 = fun _ => 1#1) :
    (∀ j, 0 ≤ (a2 j).toInt ∧ (a2 j).toInt < 50000) ∧ (∀ j, 0 ≤ (a3 j).toInt ∧ (a3 j).toInt < 20000) := by
  -- the predicate is a scalar; read it at its one index
  have h0 := congrFun h ValueIdx.ix0
  unfold fn fn_part1 fn_part2 fn_part3 at h0
  -- the result is a chain of conjunctions; the last two conjuncts are the two index-range tests
  obtain ⟨h45, h51⟩ := IntOp.andi_eq_one.1 h0
  obtain ⟨-, h44⟩ := IntOp.andi_eq_one.1 h45
  clear h0 h45 h
  beta_reduce at h44 h51
  haveI : Subsingleton S_.Idx := ⟨fun a b => funext fun d => d.elim0⟩
  -- a reduction by `and` over every axis that is 1 had a 1 at every element
  refine ⟨fun j => ?_, fun j => ?_⟩
  · exact range_of_bits (a2 j) 50000#32 50000 (by decide) (Host.reduce_andi_all _ _ _ _ _ h44 j)
  · exact range_of_bits (a3 j) 20000#32 20000 (by decide) (Host.reduce_andi_all _ _ _ _ _ h51 j)

end Cert.IndexRange

end
-- ==== Proof.lean ====
/-
  Hypergraph message passing through three dense layers: the kernel program against its reference, over the
  extended reals, for node indices in [0, 50000) and hyperedge indices in [0, 20000).

  Both programs compute, from a node table X, a skip table X0, the incidence entries (vertex, edges) and three
  layers (W1, b1), (W2, b2), (W3, b3):
      H  = dense X W1 b1                                   -- one row per node
      E  = mean over each hyperedge of the rows H[vertex]   -- one row per hyperedge
      M  = dense [X[vertex] | E[edges]] W2 b2               -- one row per incidence entry
      V  = mean over each node of the rows of M             -- one row per node
      out = dense (½·V + ½·X0) W3 b3
  where `dense x w b` has entry (r, c) = Σ_k x(r, k)·w(k, c) + b(c). The kernel program runs each dense layer as a
  launch over blocks of rows (the operands narrowed to bf16 before the product, which is the identity at the ideal
  values) and takes rows with jnp.take's rule (a fill value where an index is out of range); the reference runs each
  layer as one `dot_general` and indexes rows directly. A block of rows of a dense layer is the dense layer of the
  block, so each launch leaves the whole-array layer; with every index in range the take's range test holds in every
  row and it is the plain gather; the means and the side-by-side join are the same operations on both sides. No law of
  the extended reals beyond reading each sum at an index is used, so the floats' finiteness is never opened: of the
  precondition only the two index ranges are.
-/
import proofs.«420167_j40458591928749_2_alg».proof.Defs
import proofs.«420167_j40458591928749_2_alg».proof.Proof.Gen.Kernel
import proofs.«420167_j40458591928749_2_alg».proof.Proof.Gen.Kernel.Frame
import proofs.«420167_j40458591928749_2_alg».proof.Proof.Gen.KernelIdeal
import proofs.«420167_j40458591928749_2_alg».proof.Proof.Gen.KernelIdeal.Frame
import proofs.«420167_j40458591928749_2_alg».proof.Proof.Gen.ReferenceIdeal
import proofs.«420167_j40458591928749_2_alg».proof.Proof.Gen.ReferenceIdeal.Run
import proofs.«420167_j40458591928749_2_alg».proof.Proof.Gen.Pre_finite_inputs
import proofs.«420167_j40458591928749_2_alg».proof.Proof.KernelRun
import proofs.«420167_j40458591928749_2_alg».proof.Proof.KernelValue
import proofs.«420167_j40458591928749_2_alg».proof.Proof.ReferenceValue
import proofs.«420167_j40458591928749_2_alg».proof.Proof.StageBridge
import proofs.«420167_j40458591928749_2_alg».proof.Proof.IndexRange

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The kernel program at the ideal values runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two programs, from memories agreeing on the arguments, end with the same result. -/
theorem algebraic : Cert.algebraic_KernelIdeal_ReferenceIdeal := by
  intro m ρ m' ρ' hpre hagree
  refine ⟨fun c => Cert.KernelIdeal.Passing.passed m c, ?_, ?_⟩
  · -- the kernel program: its run, the result buffer read through the boundaries
    exact (θ_run Cert.KernelIdeal.defs _ _).mono
      (fun r h c => ⟨(h c).1.trans (Cert.KernelIdeal.Passing.result_named m ρ c), (h c).2⟩)
      (Cert.KernelIdeal.ResultRun.run m ρ)
  · -- the reference: its run over the named pieces, which are the kernel program's
    refine (θ_run Cert.ReferenceIdeal.defs _ _).mono (fun r h c => ⟨(h c).1.trans ?_, (h c).2⟩)
      (Cert.ReferenceIdeal.Stages.run_named m' ρ')
    obtain ⟨hv, he⟩ := Cert.IndexRange.of_pre _ _ _ _ _ _ _ _ _ _ (hpre c)
    obtain ⟨a0, a1, a2, a3, a4, a5, a6, a7, a8, a9⟩ := hagree c
    rw [a0, a1, a2, a3, a4, a5, a6, a7, a8, a9]
    unfold Cert.ReferenceIdeal.Stages.passing Cert.KernelIdeal.Passing.passed
    simp only [Cert.ReferenceIdeal.Stages.nodeLayer_eq, Cert.ReferenceIdeal.Stages.entryLayer_eq,
      Cert.ReferenceIdeal.Stages.halves_eq, Cert.StageBridge.edgeMean_eq, Cert.StageBridge.nodeMean_eq,
      Cert.StageBridge.sideBySide_eq, Cert.StageBridge.nodeTake_eq _ _ hv, Cert.StageBridge.edgeTake_eq _ _ he]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
